-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x200 : Shape := ⟨2, ![512, 200]⟩
abbrev S1000001x8 : Shape := ⟨2, ![1000001, 8]⟩
abbrev S8x256x32 : Shape := ⟨3, ![8, 256, 32]⟩
abbrev S_ : Shape := ⟨0, ![]⟩

class Facts : Prop where
  bcast_S_S8x256x32 : S_.BroadcastsInDim S8x256x32 (![] : Fin 0 → Fin S8x256x32.rank)
  reducesTo_S8x256x32_S_d0_1_2 : S8x256x32.ReducesTo [0, 1, 2] S_
  h_S_ : 0 < S_.numel

variable [Facts]

def fn {F : FTy → Type} [FloatOps F] (main_arg0 : IVec S512x200 32) (main_arg1 : IVec S1000001x8 32) (main_arg2 : FVec F S8x256x32 .f32) : IVec S_ 1 :=
  let main_v0 : FVec F S8x256x32 .f32 := Host.absf main_arg2
  let main_cst : FVec F S_ .f32 := constant S_ .f32 0x7F800000#32
  let main_v1 : FVec F S8x256x32 .f32 := broadcastInDim S8x256x32 ![] bcast_S_S8x256x32 main_cst
  let main_v2 : IVec S8x256x32 1 := cmpf .olt main_v0 main_v1
  let main_c : IVec S_ 1 := constantI S_ 1 1#1
  let main_v3 : IVec S_ 1 := (fun x v => Host.reduce IntOp.andi x v reducesTo_S8x256x32_S_d0_1_2 h_S_) main_v2 main_c
  main_v3
-- ==== Kernel.lean ====
abbrev S512x200 : Shape := ⟨2, ![512, 200]⟩
abbrev S1000001x8 : Shape := ⟨2, ![1000001, 8]⟩
abbrev S8x256x32 : Shape := ⟨3, ![8, 256, 32]⟩
abbrev S_ : Shape := ⟨0, ![]⟩
abbrev S512x200x1 : Shape := ⟨3, ![512, 200, 1]⟩
abbrev S512x200x8 : Shape := ⟨3, ![512, 200, 8]⟩
abbrev S102400x8 : Shape := ⟨2, ![102400, 8]⟩
abbrev S1x256x32 : Shape := ⟨3, ![1, 256, 32]⟩
abbrev S256x32 : Shape := ⟨2, ![256, 32]⟩
abbrev S256x256 : Shape := ⟨2, ![256, 256]⟩
abbrev S1x256x256 : Shape := ⟨3, ![1, 256, 256]⟩
abbrev S8x256x256 : Shape := ⟨3, ![8, 256, 256]⟩
abbrev S102400x256 : Shape := ⟨2, ![102400, 256]⟩
abbrev S4096x8 : Shape := ⟨2, ![4096, 8]⟩
abbrev S4096x256 : Shape := ⟨2, ![4096, 256]⟩
abbrev S1x256 : Shape := ⟨2, ![1, 256]⟩
abbrev S4096x1 : Shape := ⟨2, ![4096, 1]⟩
abbrev S512x200x256 : Shape := ⟨3, ![512, 200, 256]⟩

abbrev nBuf : Space → Nat
  | .hbm => 132
  | .vmem => 6
  | .smem => 0
  | _ => 0

abbrev hbmTy0_0 (i : Nat) : BufTy := match i % 128 with
  | 0 => ⟨S512x200, .i32⟩
  | 1 => ⟨S1000001x8, .i32⟩
  | 2 => ⟨S8x256x32, .f32⟩
  | 3 => ⟨S_, .i32⟩
  | 4 => ⟨S512x200, .i32⟩
  | 5 => ⟨S512x200, .i1⟩
  | 6 => ⟨S_, .i32⟩
  | 7 => ⟨S512x200, .i32⟩
  | 8 => ⟨S512x200, .i32⟩
  | 9 => ⟨S512x200, .i32⟩
  | 10 => ⟨S512x200x1, .i32⟩
  | 11 => ⟨S512x200x8, .i32⟩
  | 12 => ⟨S_, .i32⟩
  | 13 => ⟨S512x200x8, .i32⟩
  | 14 => ⟨S512x200x8, .i1⟩
  | 15 => ⟨S_, .i32⟩
  | 16 => ⟨S512x200x8, .i32⟩
  | 17 => ⟨S512x200x8, .i32⟩
  | 18 => ⟨S512x200x8, .i32⟩
  | 19 => ⟨S_, .i32⟩
  | 20 => ⟨S_, .i32⟩
  | 21 => ⟨S_, .i32⟩
  | 22 => ⟨S512x200x8, .i32⟩
  | 23 => ⟨S512x200x8, .i32⟩
  | 24 => ⟨S_, .i32⟩
  | 25 => ⟨S512x200x8, .i32⟩
  | 26 => ⟨S512x200x8, .i32⟩
  | 27 => ⟨S102400x8, .i32⟩
  | 28 => ⟨S8x256x32, .bf16⟩
  | 29 => ⟨S8x256x32, .f32⟩
  | 30 => ⟨S8x256x32, .f32⟩
  | 31 => ⟨S8x256x32, .bf16⟩
  | 32 => ⟨S1x256x32, .bf16⟩
  | 33 => ⟨S256x32, .bf16⟩
  | 34 => ⟨S_, .i32⟩
  | 35 => ⟨S_, .bf16⟩
  | 36 => ⟨S256x256, .bf16⟩
  | 37 => ⟨S1x256x32, .bf16⟩
  | 38 => ⟨S256x32, .bf16⟩
  | 39 => ⟨S_, .i32⟩
  | 40 => ⟨S_, .bf16⟩
  | 41 => ⟨S256x256, .bf16⟩
  | 42 => ⟨S1x256x32, .bf16⟩
  | 43 => ⟨S256x32, .bf16⟩
  | 44 => ⟨S_, .i32⟩
  | 45 => ⟨S_, .bf16⟩
  | 46 => ⟨S256x256, .bf16⟩
  | 47 => ⟨S1x256x32, .bf16⟩
  | 48 => ⟨S256x32, .bf16⟩
  | 49 => ⟨S_, .i32⟩
  | 50 => ⟨S_, .bf16⟩
  | 51 => ⟨S256x256, .bf16⟩
  | 52 => ⟨S1x256x32, .bf16⟩
  | 53 => ⟨S256x32, .bf16⟩
  | 54 => ⟨S_, .i32⟩
  | 55 => ⟨S_, .bf16⟩
  | 56 => ⟨S256x256, .bf16⟩
  | 57 => ⟨S1x256x32, .bf16⟩
  | 58 => ⟨S256x32, .bf16⟩
  | 59 => ⟨S_, .i32⟩
  | 60 => ⟨S_, .bf16⟩
  | 61 => ⟨S256x256, .bf16⟩
  | 62 => ⟨S1x256x32, .bf16⟩
  | 63 => ⟨S256x32, .bf16⟩
  | 64 => ⟨S_, .i32⟩
  | 65 => ⟨S_, .bf16⟩
  | 66 => ⟨S256x256, .bf16⟩
  | 67 => ⟨S1x256x32, .bf16⟩
  | 68 => ⟨S256x32, .bf16⟩
  | 69 => ⟨S_, .i32⟩
  | 70 => ⟨S_, .bf16⟩
  | 71 => ⟨S256x256, .bf16⟩
  | 72 => ⟨S1x256x256, .bf16⟩
  | 73 => ⟨S1x256x256, .bf16⟩
  | 74 => ⟨S1x256x256, .bf16⟩
  | 75 => ⟨S1x256x256, .bf16⟩
  | 76 => ⟨S1x256x256, .bf16⟩
  | 77 => ⟨S1x256x256, .bf16⟩
  | 78 => ⟨S1x256x256, .bf16⟩
  | 79 => ⟨S1x256x256, .bf16⟩
  | 80 => ⟨S8x256x256, .bf16⟩
  | 81 => ⟨S1x256x32, .bf16⟩
  | 82 => ⟨S256x32, .bf16⟩
  | 83 => ⟨S_, .i32⟩
  | 84 => ⟨S_, .bf16⟩
  | 85 => ⟨S256x256, .bf16⟩
  | 86 => ⟨S1x256x32, .bf16⟩
  | 87 => ⟨S256x32, .bf16⟩
  | 88 => ⟨S_, .i32⟩
  | 89 => ⟨S_, .bf16⟩
  | 90 => ⟨S256x256, .bf16⟩
  | 91 => ⟨S1x256x32, .bf16⟩
  | 92 => ⟨S256x32, .bf16⟩
  | 93 => ⟨S_, .i32⟩
  | 94 => ⟨S_, .bf16⟩
  | 95 => ⟨S256x256, .bf16⟩
  | 96 => ⟨S1x256x32, .bf16⟩
  | 97 => ⟨S256x32, .bf16⟩
  | 98 => ⟨S_, .i32⟩
  | 99 => ⟨S_, .bf16⟩
  | 100 => ⟨S256x256, .bf16⟩
  | 101 => ⟨S1x256x32, .bf16⟩
  | 102 => ⟨S256x32, .bf16⟩
  | 103 => ⟨S_, .i32⟩
  | 104 => ⟨S_, .bf16⟩
  | 105 => ⟨S256x256, .bf16⟩
  | 106 => ⟨S1x256x32, .bf16⟩
  | 107 => ⟨S256x32, .bf16⟩
  | 108 => ⟨S_, .i32⟩
  | 109 => ⟨S_, .bf16⟩
  | 110 => ⟨S256x256, .bf16⟩
  | 111 => ⟨S1x256x32, .bf16⟩
  | 112 => ⟨S256x32, .bf16⟩
  | 113 => ⟨S_, .i32⟩
  | 114 => ⟨S_, .bf16⟩
  | 115 => ⟨S256x256, .bf16⟩
  | 116 => ⟨S1x256x32, .bf16⟩
  | 117 => ⟨S256x32, .bf16⟩
  | 118 => ⟨S_, .i32⟩
  | 119 => ⟨S_, .bf16⟩
  | 120 => ⟨S256x256, .bf16⟩
  | 121 => ⟨S1x256x256, .bf16⟩
  | 122 => ⟨S1x256x256, .bf16⟩
  | 123 => ⟨S1x256x256, .bf16⟩
  | 124 => ⟨S1x256x256, .bf16⟩
  | 125 => ⟨S1x256x256, .bf16⟩
  | 126 => ⟨S1x256x256, .bf16⟩
  | 127 => ⟨S1x256x256, .bf16⟩
  | _ => ⟨S512x200, .i32⟩

abbrev hbmTy0_1 (i : Nat) : BufTy := match i % 128 with
  | 0 => ⟨S1x256x256, .bf16⟩
  | 1 => ⟨S8x256x256, .bf16⟩
  | 2 => ⟨S102400x256, .f32⟩
  | 3 => ⟨S512x200x256, .f32⟩
  | _ => ⟨S512x200, .i32⟩

abbrev hbmTy (i : Nat) : BufTy := match i / 128 with
  | 0 => hbmTy0_0 i
  | 1 => hbmTy0_1 i
  | _ => ⟨S512x200, .i32⟩

abbrev bufTy : (tb : Table) → Fin (tcTables nBuf tb) → BufTy
  | .hbm, ⟨i, _⟩ => hbmTy i
  | .local _ .vmem, ⟨0, _⟩ => ⟨S4096x8, .i32⟩
  | .local _ .vmem, ⟨1, _⟩ => ⟨S4096x8, .i32⟩
  | .local _ .vmem, ⟨2, _⟩ => ⟨S8x256x256, .bf16⟩
  | .local _ .vmem, ⟨3, _⟩ => ⟨S8x256x256, .bf16⟩
  | .local _ .vmem, ⟨4, _⟩ => ⟨S4096x256, .f32⟩
  | .local _ .vmem, ⟨5, _⟩ => ⟨S4096x256, .f32⟩
  | _, _ => ⟨S512x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_3 : Ref sig .tc := ⟨.hbm, 19, rfl⟩
abbrev main_c_4 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_5 : Ref sig .tc := ⟨.hbm, 34, rfl⟩
abbrev main_call2_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_call3_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_7 : Ref sig .tc := ⟨.hbm, 44, rfl⟩
abbrev main_call4_v0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_8 : Ref sig .tc := ⟨.hbm, 49, rfl⟩
abbrev main_call5_v0 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_9 : Ref sig .tc := ⟨.hbm, 54, rfl⟩
abbrev main_call6_v0 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_10 : Ref sig .tc := ⟨.hbm, 59, rfl⟩
abbrev main_call7_v0 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_11 : Ref sig .tc := ⟨.hbm, 64, rfl⟩
abbrev main_call8_v0 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_c_12 : Ref sig .tc := ⟨.hbm, 69, rfl⟩
abbrev main_call9_v0 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_c_13 : Ref sig .tc := ⟨.hbm, 83, rfl⟩
abbrev main_call10_v0 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_c_14 : Ref sig .tc := ⟨.hbm, 88, rfl⟩
abbrev main_call11_v0 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_c_15 : Ref sig .tc := ⟨.hbm, 93, rfl⟩
abbrev main_call12_v0 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_c_16 : Ref sig .tc := ⟨.hbm, 98, rfl⟩
abbrev main_call13_v0 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_c_17 : Ref sig .tc := ⟨.hbm, 103, rfl⟩
abbrev main_call14_v0 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_c_18 : Ref sig .tc := ⟨.hbm, 108, rfl⟩
abbrev main_call15_v0 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_c_19 : Ref sig .tc := ⟨.hbm, 113, rfl⟩
abbrev main_call16_v0 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_c_20 : Ref sig .tc := ⟨.hbm, 118, rfl⟩
abbrev main_call17_v0 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x8 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S512x200 : S_.BroadcastsInDim S512x200 (![] : Fin 0 → Fin S512x200.rank)
  bcast_S512x200_S512x200x1_0_1 : S512x200.BroadcastsInDim S512x200x1 (![0, 1] : Fin 2 → Fin S512x200x1.rank)
  bcast_S_S512x200x8 : S_.BroadcastsInDim S512x200x8 (![] : Fin 0 → Fin S512x200x8.rank)
  shapeCasts_S512x200x8_S102400x8 : S512x200x8.ShapeCasts S102400x8
  bitsLt_bf16_f32 : FTy.bits .bf16 < FTy.bits .f32
  slices_S8x256x32_S1x256x32_0_0_0 : S8x256x32.Slices ![0, 0, 0] S1x256x32
  shapeCasts_S1x256x32_S256x32 : S1x256x32.ShapeCasts S256x32
  pads_S256x32_S256x256_000_02240 : S256x32.Pads (![0, 0] : Fin 2 → Nat) ![0, 224] ![0, 0] S256x256
  h_S_ : 0 < S_.numel
  slices_S8x256x32_S1x256x32_1_0_0 : S8x256x32.Slices ![1, 0, 0] S1x256x32
  pads_S256x32_S256x256_000_321920 : S256x32.Pads (![0, 32] : Fin 2 → Nat) ![0, 192] ![0, 0] S256x256
  slices_S8x256x32_S1x256x32_2_0_0 : S8x256x32.Slices ![2, 0, 0] S1x256x32
  pads_S256x32_S256x256_000_641600 : S256x32.Pads (![0, 64] : Fin 2 → Nat) ![0, 160] ![0, 0] S256x256
  slices_S8x256x32_S1x256x32_3_0_0 : S8x256x32.Slices ![3, 0, 0] S1x256x32
  pads_S256x32_S256x256_000_961280 : S256x32.Pads (![0, 96] : Fin 2 → Nat) ![0, 128] ![0, 0] S256x256
  slices_S8x256x32_S1x256x32_4_0_0 : S8x256x32.Slices ![4, 0, 0] S1x256x32
  pads_S256x32_S256x256_000_128960 : S256x32.Pads (![0, 128] : Fin 2 → Nat) ![0, 96] ![0, 0] S256x256
  slices_S8x256x32_S1x256x32_5_0_0 : S8x256x32.Slices ![5, 0, 0] S1x256x32
  pads_S256x32_S256x256_000_160640 : S256x32.Pads (![0, 160] : Fin 2 → Nat) ![0, 64] ![0, 0] S256x256
  slices_S8x256x32_S1x256x32_6_0_0 : S8x256x32.Slices ![6, 0, 0] S1x256x32
  pads_S256x32_S256x256_000_192320 : S256x32.Pads (![0, 192] : Fin 2 → Nat) ![0, 32] ![0, 0] S256x256
  slices_S8x256x32_S1x256x32_7_0_0 : S8x256x32.Slices ![7, 0, 0] S1x256x32
  pads_S256x32_S256x256_000_22400 : S256x32.Pads (![0, 224] : Fin 2 → Nat) ![0, 0] ![0, 0] S256x256
  bcast_S256x256_S1x256x256_1_2 : S256x256.BroadcastsInDim S1x256x256 (![1, 2] : Fin 2 → Fin S1x256x256.rank)
  concatenates_S1x256x256_S1x256x256_S1x256x256_S1x256x256_S1x256x256_S1x256x256_S1x256x256_S1x256x256_S8x256x256_d0 : Shape.Concatenates [S1x256x256, S1x256x256, S1x256x256, S1x256x256, S1x256x256, S1x256x256, S1x256x256, S1x256x256] S8x256x256 0
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  iota_S1x256_d1_w32 : S1x256.Iotas .tc 32 [1]
  slices_S4096x8_o0_0_S4096x1 : S4096x8.Slices ![0, 0] S4096x1
  broadcasts_S4096x1_S4096x256 : S4096x1.Broadcasts S4096x256
  broadcasts_S1x256_S4096x256 : S1x256.Broadcasts S4096x256
  natLt_1_32 : 1 < 32
  inb_S8x256x256_S1x256x256_0_0_0 : ∀ a, (![0, 0, 0] : Fin 3 → Nat) a + S1x256x256.size a ≤ S8x256x256.size a
  h_S1x256x256 : 0 < S1x256x256.numel
  shapeCasts_S1x256x256_S256x256 : S1x256x256.ShapeCasts S256x256
  slices_S4096x8_o0_1_S4096x1 : S4096x8.Slices ![0, 1] S4096x1
  inb_S8x256x256_S1x256x256_1_0_0 : ∀ a, (![1, 0, 0] : Fin 3 → Nat) a + S1x256x256.size a ≤ S8x256x256.size a
  slices_S4096x8_o0_2_S4096x1 : S4096x8.Slices ![0, 2] S4096x1
  inb_S8x256x256_S1x256x256_2_0_0 : ∀ a, (![2, 0, 0] : Fin 3 → Nat) a + S1x256x256.size a ≤ S8x256x256.size a
  slices_S4096x8_o0_3_S4096x1 : S4096x8.Slices ![0, 3] S4096x1
  inb_S8x256x256_S1x256x256_3_0_0 : ∀ a, (![3, 0, 0] : Fin 3 → Nat) a + S1x256x256.size a ≤ S8x256x256.size a
  slices_S4096x8_o0_4_S4096x1 : S4096x8.Slices ![0, 4] S4096x1
  inb_S8x256x256_S1x256x256_4_0_0 : ∀ a, (![4, 0, 0] : Fin 3 → Nat) a + S1x256x256.size a ≤ S8x256x256.size a
  slices_S4096x8_o0_5_S4096x1 : S4096x8.Slices ![0, 5] S4096x1
  inb_S8x256x256_S1x256x256_5_0_0 : ∀ a, (![5, 0, 0] : Fin 3 → Nat) a + S1x256x256.size a ≤ S8x256x256.size a
  slices_S4096x8_o0_6_S4096x1 : S4096x8.Slices ![0, 6] S4096x1
  inb_S8x256x256_S1x256x256_6_0_0 : ∀ a, (![6, 0, 0] : Fin 3 → Nat) a + S1x256x256.size a ≤ S8x256x256.size a
  slices_S4096x8_o0_7_S4096x1 : S4096x8.Slices ![0, 7] S4096x1
  inb_S8x256x256_S1x256x256_7_0_0 : ∀ a, (![7, 0, 0] : Fin 3 → Nat) a + S1x256x256.size a ≤ S8x256x256.size a
  inb_S4096x256_S4096x256_0_0 : ∀ a, (![0, 0] : Fin 2 → Nat) a + S4096x256.size a ≤ S4096x256.size a
  h_S4096x256 : 0 < S4096x256.numel
  shapeCasts_S102400x256_S512x200x256 : S102400x256.ShapeCasts S512x200x256
  gather_S1000001x8_S512x200x1_S512x200x8_2_0_n_n_0_2_18_wf : GatherDims.WF S1000001x8 S512x200x1 S512x200x8 [2] [0] [] [0] [] 2 ![1, 8]
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x8.size a ≤ S102400x8.size a
  hwx0_0 : ∀ i : grid0.Coords, EltTy.bits .i32 = 32 ∨ (Rect.block (s := S102400x8) S4096x8.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x256x256.size a ≤ S8x256x256.size a
  hwx0_1 : ∀ i : grid0.Coords, EltTy.bits .bf16 = 32 ∨ (Rect.block (s := S8x256x256) S8x256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x256x256.size a ≤ S8x256x256.size a
  hwx0_2 : ∀ i : grid0.Coords, EltTy.bits .bf16 = 32 ∨ (Rect.block (s := S8x256x256) S8x256x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S102400x256.size a
  hwx0_3 : ∀ i : grid0.Coords, EltTy.bits .f32 = 32 ∨ (Rect.block (s := S102400x256) S4096x256.size (cc0_transform_3 i) (hinb0_3 i)).WholeWords (EltTy.packing .f32)

variable [Facts₀]

def gather_S1000001x8_S512x200x1_S512x200x8_2_0_n_n_0_2_18 : GatherDims S1000001x8 S512x200x1 S512x200x8 where
  offsetDims := [2]
  collapsedSliceDims := [0]
  operandBatchingDims := []
  startIndicesBatchingDims := []
  startIndexMap := [0]
  indexVectorDim := 2
  sliceSizes := ![1, 8]
  wf := gather_S1000001x8_S512x200x1_S512x200x8_2_0_n_n_0_2_18_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_v13) S4096x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S8x256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v83) S8x256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v84) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x200 : Shape := ⟨2, ![512, 200]⟩
abbrev S1000001x8 : Shape := ⟨2, ![1000001, 8]⟩
abbrev S8x256x32 : Shape := ⟨3, ![8, 256, 32]⟩
abbrev S_ : Shape := ⟨0, ![]⟩
abbrev S512x200x1 : Shape := ⟨3, ![512, 200, 1]⟩
abbrev S512x200x8 : Shape := ⟨3, ![512, 200, 8]⟩
abbrev S8 : Shape := ⟨1, ![8]⟩
abbrev S1x1x8 : Shape := ⟨3, ![1, 1, 8]⟩
abbrev S512x200x8x1 : Shape := ⟨4, ![512, 200, 8, 1]⟩
abbrev S512x200x8x2 : Shape := ⟨4, ![512, 200, 8, 2]⟩
abbrev S512x200x8x32 : Shape := ⟨4, ![512, 200, 8, 32]⟩
abbrev S512x200x256 : Shape := ⟨3, ![512, 200, 256]⟩

abbrev nBuf : Space → Nat
  | .hbm => 34
  | .vmem => 0
  | .smem => 0
  | _ => 0

abbrev bufTy : (tb : Table) → Fin (tcTables nBuf tb) → BufTy
  | .hbm, ⟨0, _⟩ => ⟨S512x200, .i32⟩
  | .hbm, ⟨1, _⟩ => ⟨S1000001x8, .i32⟩
  | .hbm, ⟨2, _⟩ => ⟨S8x256x32, .f32⟩
  | .hbm, ⟨3, _⟩ => ⟨S_, .i32⟩
  | .hbm, ⟨4, _⟩ => ⟨S512x200, .i32⟩
  | .hbm, ⟨5, _⟩ => ⟨S512x200, .i1⟩
  | .hbm, ⟨6, _⟩ => ⟨S_, .i32⟩
  | .hbm, ⟨7, _⟩ => ⟨S512x200, .i32⟩
  | .hbm, ⟨8, _⟩ => ⟨S512x200, .i32⟩
  | .hbm, ⟨9, _⟩ => ⟨S512x200, .i32⟩
  | .hbm, ⟨10, _⟩ => ⟨S512x200x1, .i32⟩
  | .hbm, ⟨11, _⟩ => ⟨S512x200x8, .i32⟩
  | .hbm, ⟨12, _⟩ => ⟨S8, .i32⟩
  | .hbm, ⟨13, _⟩ => ⟨S1x1x8, .i32⟩
  | .hbm, ⟨14, _⟩ => ⟨S_, .i32⟩
  | .hbm, ⟨15, _⟩ => ⟨S1x1x8, .i32⟩
  | .hbm, ⟨16, _⟩ => ⟨S1x1x8, .i1⟩
  | .hbm, ⟨17, _⟩ => ⟨S_, .i32⟩
  | .hbm, ⟨18, _⟩ => ⟨S1x1x8, .i32⟩
  | .hbm, ⟨19, _⟩ => ⟨S1x1x8, .i32⟩
  | .hbm, ⟨20, _⟩ => ⟨S1x1x8, .i32⟩
  | .hbm, ⟨21, _⟩ => ⟨S_, .i32⟩
  | .hbm, ⟨22, _⟩ => ⟨S512x200x8, .i32⟩
  | .hbm, ⟨23, _⟩ => ⟨S512x200x8, .i1⟩
  | .hbm, ⟨24, _⟩ => ⟨S_, .i32⟩
  | .hbm, ⟨25, _⟩ => ⟨S512x200x8, .i32⟩
  | .hbm, ⟨26, _⟩ => ⟨S512x200x8, .i32⟩
  | .hbm, ⟨27, _⟩ => ⟨S512x200x8, .i32⟩
  | .hbm, ⟨28, _⟩ => ⟨S512x200x8, .i32⟩
  | .hbm, ⟨29, _⟩ => ⟨S512x200x8x1, .i32⟩
  | .hbm, ⟨30, _⟩ => ⟨S512x200x8x1, .i32⟩
  | .hbm, ⟨31, _⟩ => ⟨S512x200x8x2, .i32⟩
  | .hbm, ⟨32, _⟩ => ⟨S512x200x8x32, .f32⟩
  | .hbm, ⟨33, _⟩ => ⟨S512x200x256, .f32⟩
  | _, _ => ⟨S512x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_c_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  bcast_S_S512x200 : S_.BroadcastsInDim S512x200 (![] : Fin 0 → Fin S512x200.rank)
  bcast_S512x200_S512x200x1_0_1 : S512x200.BroadcastsInDim S512x200x1 (![0, 1] : Fin 2 → Fin S512x200x1.rank)
  bcast_S8_S1x1x8_2 : S8.BroadcastsInDim S1x1x8 (![2] : Fin 1 → Fin S1x1x8.rank)
  bcast_S_S1x1x8 : S_.BroadcastsInDim S1x1x8 (![] : Fin 0 → Fin S1x1x8.rank)
  bcast_S_S512x200x8 : S_.BroadcastsInDim S512x200x8 (![] : Fin 0 → Fin S512x200x8.rank)
  bcast_S1x1x8_S512x200x8_0_1_2 : S1x1x8.BroadcastsInDim S512x200x8 (![0, 1, 2] : Fin 3 → Fin S512x200x8.rank)
  bcast_S512x200x8_S512x200x8x1_0_1_2 : S512x200x8.BroadcastsInDim S512x200x8x1 (![0, 1, 2] : Fin 3 → Fin S512x200x8x1.rank)
  concatenates_S512x200x8x1_S512x200x8x1_S512x200x8x2_d3 : Shape.Concatenates [S512x200x8x1, S512x200x8x1] S512x200x8x2 3
  shapeCasts_S512x200x8x32_S512x200x256 : S512x200x8x32.ShapeCasts S512x200x256
  gather_S1000001x8_S512x200x1_S512x200x8_2_0_n_n_0_2_18_wf : GatherDims.WF S1000001x8 S512x200x1 S512x200x8 [2] [0] [] [0] [] 2 ![1, 8]
  gather_S8x256x32_S512x200x8x2_S512x200x8x32_3_01_n_n_01_3_1132_wf : GatherDims.WF S8x256x32 S512x200x8x2 S512x200x8x32 [3] [0, 1] [] [0, 1] [] 3 ![1, 1, 32]

variable [Facts₀]

def gather_S1000001x8_S512x200x1_S512x200x8_2_0_n_n_0_2_18 : GatherDims S1000001x8 S512x200x1 S512x200x8 where
  offsetDims := [2]
  collapsedSliceDims := [0]
  operandBatchingDims := []
  startIndicesBatchingDims := []
  startIndexMap := [0]
  indexVectorDim := 2
  sliceSizes := ![1, 8]
  wf := gather_S1000001x8_S512x200x1_S512x200x8_2_0_n_n_0_2_18_wf
def gather_S8x256x32_S512x200x8x2_S512x200x8x32_3_01_n_n_01_3_1132 : GatherDims S8x256x32 S512x200x8x2 S512x200x8x32 where
  offsetDims := [3]
  collapsedSliceDims := [0, 1]
  operandBatchingDims := []
  startIndicesBatchingDims := []
  startIndexMap := [0, 1]
  indexVectorDim := 3
  sliceSizes := ![1, 1, 32]
  wf := gather_S8x256x32_S512x200x8x2_S512x200x8x32_3_01_n_n_01_3_1132_wf

class Facts : Prop extends Facts₀ where

variable [Facts]
-- ==== Proof.K.Around.lean ====
/-
  The program around its one kernel region. Before the region @main runs 37 stretches of host operations (the
  first gather, the wrap and clip of the codes, the bf16 split of the centroids into a head and a remainder, each
  plane padded to 256 columns and the eight planes stacked); after it, one reshape. This module states what the
  region finds in every buffer (the fold of the earlier operations over the launch memory), that no operation
  before or after the region writes an argument array, each window's block at a grid point, and how a run to the
  library's frame post gives the frame claim's post and the value of the result buffer.
-/
import proofs.«403901_j30253749633338_3_alg».proof.Proof.Gen.Kernel.Launch
import proofs.«403901_j30253749633338_3_alg».proof.Proof.Gen.Kernel.Points
import Idealize.ShloMosaic.Lib.Pipeline.FrameBody
import Idealize.ShloMosaic.Lib.Pipeline.FrameSuffix

set_option maxRecDepth 16384

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! ## What the region finds -/

/-- The host stretches before the region, in program order. -/
abbrev preOps : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]

/-- Core `c`'s buffer contents when the region is entered: the launch memory after every earlier host operation. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps0_35_fresh : (hostOps0_35 : List (HloOp τ sig (Elt F))).Forall fun op => op.fresh = ∅ := by
  simp only [List.Forall]; repeat' constructor
theorem hostOps0_36_fresh : (hostOps0_36 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the earlier host stretches, the region, then the reshape: it reduces to the region continued by the
    reshape, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh, hostOps0_35_fresh, hostOps0_36_fresh⟩) main_chain

/-- The reshape after the region touches unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which is none of the region's four arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

set_option maxHeartbeats 4000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: `main_arg0` ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 4000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: `main_arg1` ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 4000000 in
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: `main_arg2` ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is `V`'s and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## From the frame run's post -/

/-- The frame claim's post from a run to the library's frame post: none of the three argument arrays is a window's
    array, so each is read by the post's second clause and ends as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c)⟩) h

/-- The same run read also at the result buffer `main_v85`: it holds what the reshape leaves there. -/
theorem result_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_v85) = Pipeline.afterTail₀ cfgs dats 0 (V0 m) [hostOps1] c main_v85
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
    (h c).2 main_v85 (Pipeline.mem_restRefs_of main_v85 (by decide) (by decide)),
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c)⟩) h

end Cert.Kernel.Fr

end
-- ==== Proof.K.Body.lean ====
/-
  The kernel body at one grid point. It loads its block of codes (4096 rows of 8 words), turns each column into a
  one-hot matrix against the 256 column indices, and for each of the eight planes adds to one accumulator the
  product of that one-hot matrix with the plane of the head table and with the plane of the remainder table; the
  accumulator is stored once over the whole output block. This module states what the output block holds after the
  body as one term of the three input blocks, and proves the body's triple by symbolic execution.
-/
import proofs.«403901_j30253749633338_3_alg».proof.Proof.Gen.Kernel.Launch
import proofs.«403901_j30253749633338_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole block of codes. -/
abbrev rCodes : Rect S4096x8 := Rect.unit (s := S4096x8) ![0, 0] S4096x8.size inb_S4096x8_S4096x8_0_0
/-- Plane `k` of a table block (the same rectangle in the head table and in the remainder table). -/
abbrev rPlane0 : Rect S8x256x256 := Rect.unit (s := S8x256x256) ![0, 0, 0] S1x256x256.size inb_S8x256x256_S1x256x256_0_0_0
abbrev rPlane1 : Rect S8x256x256 := Rect.unit (s := S8x256x256) ![1, 0, 0] S1x256x256.size inb_S8x256x256_S1x256x256_1_0_0
abbrev rPlane2 : Rect S8x256x256 := Rect.unit (s := S8x256x256) ![2, 0, 0] S1x256x256.size inb_S8x256x256_S1x256x256_2_0_0
abbrev rPlane3 : Rect S8x256x256 := Rect.unit (s := S8x256x256) ![3, 0, 0] S1x256x256.size inb_S8x256x256_S1x256x256_3_0_0
abbrev rPlane4 : Rect S8x256x256 := Rect.unit (s := S8x256x256) ![4, 0, 0] S1x256x256.size inb_S8x256x256_S1x256x256_4_0_0
abbrev rPlane5 : Rect S8x256x256 := Rect.unit (s := S8x256x256) ![5, 0, 0] S1x256x256.size inb_S8x256x256_S1x256x256_5_0_0
abbrev rPlane6 : Rect S8x256x256 := Rect.unit (s := S8x256x256) ![6, 0, 0] S1x256x256.size inb_S8x256x256_S1x256x256_6_0_0
abbrev rPlane7 : Rect S8x256x256 := Rect.unit (s := S8x256x256) ![7, 0, 0] S1x256x256.size inb_S8x256x256_S1x256x256_7_0_0
/-- The whole output block. -/
abbrev rOut : Rect S4096x256 := Rect.unit (s := S4096x256) ![0, 0] S4096x256.size inb_S4096x256_S4096x256_0_0

/-! ## What the body stores -/

/-- The accumulator after all eight planes, as the printed arithmetic of the three input blocks: the codes `x0`, the
    head table `x1` and the remainder table `x2`. -/
def acc (x0 : Vec F S4096x8 .i32) (x1 x2 : Vec F S8x256x256 .bf16) : FVec F S4096x256 .f32 :=
  let v0 := View.ld x0 rCodes
  let v2 := k0_pay2 v0
  let v4 := k0_pay3 (F := F)
  let v35 := k0_pay4 v0 (View.ld x1 rPlane0) (View.ld x2 rPlane0) (View.ld x1 rPlane1) (View.ld x2 rPlane1)
  let v39 := k0_pay5 v0
  let v72 := k0_pay6 v2 v4
  let v76 := k0_pay7 v2 v4 v35 v39 (View.ld x1 rPlane2) (View.ld x2 rPlane2) (View.ld x1 rPlane3) (View.ld x2 rPlane3) (View.ld x1 rPlane4)
  let v110 := k0_pay8 v2 v4 v72 v76 (View.ld x2 rPlane4) (View.ld x1 rPlane5) (View.ld x2 rPlane5) (View.ld x1 rPlane6) (View.ld x2 rPlane6)
  let v117 := k0_pay9 v2 v4
  k0_pay1 v110 v117 (View.ld x1 rPlane7) (View.ld x2 rPlane7)

/-- The output block after the body: its one store, over the whole block. -/
def out0_3 (x0 : Vec F S4096x8 .i32) (x1 x2 : Vec F S8x256x256 .bf16) : Vec F S4096x256 .f32 :=
  View.canon [⟨rOut, acc x0 x1 x2⟩]

/-- The one store covers the block. -/
theorem cover0_3 (p0 : Vec F S4096x256 .f32) (y : S4096x256.Idx) :
    ∃ pc ∈ ([⟨rOut, p0⟩] : List (View.Piece (Elt F) S4096x256 .f32)), y ∈ pc.1.set :=
  View.cover_of_tiled [⟨rOut, p0⟩] S4096x256.size (by rfl) y

/-! ## The body's triple -/

set_option maxHeartbeats 4000000 in
/-- On whole staging buffers, the inputs' at contents `x0 x1 x2` and the output's at anything, the body runs to a
    state holding the inputs as they were and the output at `out0_3 x0 x1 x2`. -/
theorem sound_kernel (c : Dev nD) (E : Set ℕ) (i : grid0.Coords)
    (arg1 : Memref sig .tc .vmem S4096x8 .i32) (harg1 : arg1.IsWhole) (arg2 : Memref sig .tc .vmem S8x256x256 .bf16) (harg2 : arg2.IsWhole)
    (arg3 : Memref sig .tc .vmem S8x256x256 .bf16) (harg3 : arg3.IsWhole) (arg4 : Memref sig .tc .vmem S4096x256 .f32) (harg4 : arg4.IsWhole)
    (x0 : Vec F S4096x8 .i32) (x1 x2 : Vec F S8x256x256 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__codebook_kernel i arg1 harg1 arg2 harg2 arg3 harg3 arg4 harg4) K := by
  simp only [cc0__codebook_kernel_eq_skeleton]; unfold cc0__codebook_kernel_skel
  simp only [k0_part1_eq_skeleton]; unfold k0_part1_skel
  simp only [k0_part2_eq_skeleton]; unfold k0_part2_skel
  simp only [k0_part3_eq_skeleton]; unfold k0_part3_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

end Cert.Kernel.Fr

end
-- ==== Proof.K.Run.lean ====
/-
  The region's proof data and its run. After the body at point `t` each input window's staging buffer still holds
  its block and the output window's holds the accumulated block; the library's launch theorem for a region followed
  by host operations then gives the run of @main to the frame post, and from it the frame claim.
-/
import proofs.«403901_j30253749633338_3_alg».proof.Proof.K.Around
import proofs.«403901_j30253749633338_3_alg».proof.Proof.K.Body

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's buffer at its block and
    the output's at `out0_3` of the input blocks; nothing owed, full shares, the class's invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; at the end every array of the region holds what the library
    computes from the proof data, and every other unscoped buffer what the reshape after the region leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere and leaves its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

/-- The same run read at the result buffer as well. -/
theorem run_result : θ_run defs (onTc (τ := τ) (main (F := F))) ⟨m, fun _ => 0, ρ⟩ (fun r => ∀ c : Dev nD,
      r.2.mem ((c.tc : Thread nD τ).loc main_v85) = Pipeline.afterTail₀ cfgs (dats m) 0 (V0 m) [hostOps1] c main_v85
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  result_of m ρ (dats m) (run_main m ρ)

end Cert.Kernel.Fr

end
-- ==== Proof.KI.Around.lean ====
/-
  The program around its one kernel region. Before the region @main runs 37 stretches of host operations (the
  first gather, the wrap and clip of the codes, the bf16 split of the centroids into a head and a remainder, each
  plane padded to 256 columns and the eight planes stacked); after it, one reshape. This module states what the
  region finds in every buffer (the fold of the earlier operations over the launch memory), that no operation
  before or after the region writes an argument array, each window's block at a grid point, and how a run to the
  library's frame post gives the frame claim's post and the value of the result buffer.
-/
import proofs.«403901_j30253749633338_3_alg».proof.Proof.Gen.KernelIdeal.Launch
import proofs.«403901_j30253749633338_3_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! ## What the region finds -/

/-- The host stretches before the region, in program order. -/
abbrev preOps : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]

/-- Core `c`'s buffer contents when the region is entered: the launch memory after every earlier host operation. -/
abbrev V0 (c : Dev nD) : Valuation τ sig (Elt F) := StableHlo.after (List.flatten (preOps (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps0_35_fresh : (hostOps0_35 : List (HloOp τ sig (Elt F))).Forall fun op => op.fresh = ∅ := by
  simp only [List.Forall]; repeat' constructor
theorem hostOps0_36_fresh : (hostOps0_36 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the earlier host stretches, the region, then the reshape: it reduces to the region continued by the
    reshape, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh, hostOps0_35_fresh, hostOps0_36_fresh⟩) main_chain

/-- The reshape after the region touches unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which is none of the region's four arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

set_option maxHeartbeats 4000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: `main_arg0` ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 4000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: `main_arg1` ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 4000000 in
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: `main_arg2` ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is `V`'s and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## From the frame run's post -/

/-- The frame claim's post from a run to the library's frame post: none of the three argument arrays is a window's
    array, so each is read by the post's second clause and ends as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c)⟩) h

/-- The same run read also at the result buffer `main_v85`: it holds what the reshape leaves there. -/
theorem result_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_v85) = Pipeline.afterTail₀ cfgs dats 0 (V0 m) [hostOps1] c main_v85
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
    (h c).2 main_v85 (Pipeline.mem_restRefs_of main_v85 (by decide) (by decide)),
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c)⟩) h

end Cert.KernelIdeal.Fr

end
-- ==== Proof.KI.Body.lean ====
/-
  The kernel body at one grid point. It loads its block of codes (4096 rows of 8 words), turns each column into a
  one-hot matrix against the 256 column indices, and for each of the eight planes adds to one accumulator the
  product of that one-hot matrix with the plane of the head table and with the plane of the remainder table; the
  accumulator is stored once over the whole output block. This module states what the output block holds after the
  body as one term of the three input blocks, and proves the body's triple by symbolic execution.
-/
import proofs.«403901_j30253749633338_3_alg».proof.Proof.Gen.KernelIdeal.Launch
import proofs.«403901_j30253749633338_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole block of codes. -/
abbrev rCodes : Rect S4096x8 := Rect.unit (s := S4096x8) ![0, 0] S4096x8.size inb_S4096x8_S4096x8_0_0
/-- Plane `k` of a table block (the same rectangle in the head table and in the remainder table). -/
abbrev rPlane0 : Rect S8x256x256 := Rect.unit (s := S8x256x256) ![0, 0, 0] S1x256x256.size inb_S8x256x256_S1x256x256_0_0_0
abbrev rPlane1 : Rect S8x256x256 := Rect.unit (s := S8x256x256) ![1, 0, 0] S1x256x256.size inb_S8x256x256_S1x256x256_1_0_0
abbrev rPlane2 : Rect S8x256x256 := Rect.unit (s := S8x256x256) ![2, 0, 0] S1x256x256.size inb_S8x256x256_S1x256x256_2_0_0
abbrev rPlane3 : Rect S8x256x256 := Rect.unit (s := S8x256x256) ![3, 0, 0] S1x256x256.size inb_S8x256x256_S1x256x256_3_0_0
abbrev rPlane4 : Rect S8x256x256 := Rect.unit (s := S8x256x256) ![4, 0, 0] S1x256x256.size inb_S8x256x256_S1x256x256_4_0_0
abbrev rPlane5 : Rect S8x256x256 := Rect.unit (s := S8x256x256) ![5, 0, 0] S1x256x256.size inb_S8x256x256_S1x256x256_5_0_0
abbrev rPlane6 : Rect S8x256x256 := Rect.unit (s := S8x256x256) ![6, 0, 0] S1x256x256.size inb_S8x256x256_S1x256x256_6_0_0
abbrev rPlane7 : Rect S8x256x256 := Rect.unit (s := S8x256x256) ![7, 0, 0] S1x256x256.size inb_S8x256x256_S1x256x256_7_0_0
/-- The whole output block. -/
abbrev rOut : Rect S4096x256 := Rect.unit (s := S4096x256) ![0, 0] S4096x256.size inb_S4096x256_S4096x256_0_0

/-! ## What the body stores -/

/-- The accumulator after all eight planes, as the printed arithmetic of the three input blocks: the codes `x0`, the
    head table `x1` and the remainder table `x2`. -/
def acc (x0 : Vec F S4096x8 .i32) (x1 x2 : Vec F S8x256x256 .bf16) : FVec F S4096x256 .f32 :=
  let v0 := View.ld x0 rCodes
  let v2 := k0_pay2 v0
  let v4 := k0_pay3 (F := F)
  let v35 := k0_pay4 v0 (View.ld x1 rPlane0) (View.ld x2 rPlane0) (View.ld x1 rPlane1) (View.ld x2 rPlane1)
  let v39 := k0_pay5 v0
  let v72 := k0_pay6 v2 v4
  let v76 := k0_pay7 v2 v4 v35 v39 (View.ld x1 rPlane2) (View.ld x2 rPlane2) (View.ld x1 rPlane3) (View.ld x2 rPlane3) (View.ld x1 rPlane4)
  let v110 := k0_pay8 v2 v4 v72 v76 (View.ld x2 rPlane4) (View.ld x1 rPlane5) (View.ld x2 rPlane5) (View.ld x1 rPlane6) (View.ld x2 rPlane6)
  let v117 := k0_pay9 v2 v4
  k0_pay1 v110 v117 (View.ld x1 rPlane7) (View.ld x2 rPlane7)

/-- The output block after the body: its one store, over the whole block. -/
def out0_3 (x0 : Vec F S4096x8 .i32) (x1 x2 : Vec F S8x256x256 .bf16) : Vec F S4096x256 .f32 :=
  View.canon [⟨rOut, acc x0 x1 x2⟩]

/-- The one store covers the block. -/
theorem cover0_3 (p0 : Vec F S4096x256 .f32) (y : S4096x256.Idx) :
    ∃ pc ∈ ([⟨rOut, p0⟩] : List (View.Piece (Elt F) S4096x256 .f32)), y ∈ pc.1.set :=
  View.cover_of_tiled [⟨rOut, p0⟩] S4096x256.size (by rfl) y

/-! ## The body's triple -/

set_option maxHeartbeats 4000000 in
/-- On whole staging buffers, the inputs' at contents `x0 x1 x2` and the output's at anything, the body runs to a
    state holding the inputs as they were and the output at `out0_3 x0 x1 x2`. -/
theorem sound_kernel (c : Dev nD) (E : Set ℕ) (i : grid0.Coords)
    (arg1 : Memref sig .tc .vmem S4096x8 .i32) (harg1 : arg1.IsWhole) (arg2 : Memref sig .tc .vmem S8x256x256 .bf16) (harg2 : arg2.IsWhole)
    (arg3 : Memref sig .tc .vmem S8x256x256 .bf16) (harg3 : arg3.IsWhole) (arg4 : Memref sig .tc .vmem S4096x256 .f32) (harg4 : arg4.IsWhole)
    (x0 : Vec F S4096x8 .i32) (x1 x2 : Vec F S8x256x256 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__codebook_kernel i arg1 harg1 arg2 harg2 arg3 harg3 arg4 harg4) K := by
  simp only [cc0__codebook_kernel_eq_skeleton]; unfold cc0__codebook_kernel_skel
  simp only [k0_part1_eq_skeleton]; unfold k0_part1_skel
  simp only [k0_part2_eq_skeleton]; unfold k0_part2_skel
  simp only [k0_part3_eq_skeleton]; unfold k0_part3_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0_3 _)

end Cert.KernelIdeal.Fr

end
-- ==== Proof.KI.Run.lean ====
/-
  The region's proof data and its run. After the body at point `t` each input window's staging buffer still holds
  its block and the output window's holds the accumulated block; the library's launch theorem for a region followed
  by host operations then gives the run of @main to the frame post, and from it the frame claim.
-/
import proofs.«403901_j30253749633338_3_alg».proof.Proof.KI.Around
import proofs.«403901_j30253749633338_3_alg».proof.Proof.KI.Body

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's buffer at its block and
    the output's at `out0_3` of the input blocks; nothing owed, full shares, the class's invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; at the end every array of the region holds what the library
    computes from the proof data, and every other unscoped buffer what the reshape after the region leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere and leaves its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

/-- The same run read at the result buffer as well. -/
theorem run_result : θ_run defs (onTc (τ := τ) (main (F := F))) ⟨m, fun _ => 0, ρ⟩ (fun r => ∀ c : Dev nD,
      r.2.mem ((c.tc : Thread nD τ).loc main_v85) = Pipeline.afterTail₀ cfgs (dats m) 0 (V0 m) [hostOps1] c main_v85
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  result_of m ρ (dats m) (run_main m ρ)

end Cert.KernelIdeal.Fr

end
-- ==== Proof.Spec.lean ====
/-
  The mathematics shared by both sides. A code word is read as a signed integer and brought into the range of a
  centroid index, 0 to 255: the kernel clips the word itself, the reference's gather clamps the index it reads; both
  name the same row (`codeOf`). The result at (b, s, j) is the centroid entry of plane j / 32, row `codeOf` of the
  code word of token (b, s) in that plane, column j % 32 (`G`). The kernel reaches it as a sum over the eight planes
  of a head term and a remainder term (`planeSum`), of which only plane j / 32 contributes.
-/
import Idealize.ShloMosaic.PureOps.Ideal
import Idealize.ShloMosaic.Lib.ValueIdx

noncomputable section

namespace Cert.Codebook

open Idealize.ShloMosaic Idealize.ShloMosaic.ValueIdx

/-- The code words: one per token and plane. -/
abbrev SW : Shape := ⟨3, ![512, 200, 8]⟩
/-- The centroid tables: plane, row, column. -/
abbrev SCen : Shape := ⟨3, ![8, 256, 32]⟩
/-- The result. -/
abbrev SOut : Shape := ⟨3, ![512, 200, 256]⟩

/-- A word clipped, as a signed integer, into [0, 255]: the kernel's `minimum (255, maximum (0, x))`. -/
def clip (x : BitVec 32) : BitVec 32 := IntOp.minsi 255#32 (IntOp.maxsi 0#32 x)

/-- The centroid row a code word names: its signed value brought into [0, 255]. -/
def codeOf (x : BitVec 32) : Fin 256 := ⟨min x.toInt.toNat 255, by omega⟩

/-- The result: entry (plane j / 32, row `codeOf` of the token's code word in that plane, column j % 32). -/
def G (W : SW.Idx → BitVec 32) (cen : SCen.Idx → EReal) : SOut.Idx → EReal := fun i =>
  cen (ix3 (⟨(i 2).val / 32, by have h : (i 2).val < 256 := (i 2).isLt; show (i 2).val / 32 < 8; omega⟩ : Fin 8)
    (codeOf (W (ix3 (⟨(i 0).val, (i 0).isLt⟩ : Fin 512) (⟨(i 1).val, (i 1).isLt⟩ : Fin 200)
      (⟨(i 2).val / 32, by have h : (i 2).val < 256 := (i 2).isLt; show (i 2).val / 32 < 8; omega⟩ : Fin 8))))
    (⟨(i 2).val % 32, Nat.mod_lt _ (by decide)⟩ : Fin 32))

/-- The accumulator's value from the eight planes' head terms `h` and remainder terms `l`, in the order the
    kernel adds them. -/
def planeSum (h l : Fin 8 → EReal) : EReal :=
  0 + h 0 + l 0 + h 1 + l 1 + h 2 + l 2 + h 3 + l 3 + h 4 + l 4 + h 5 + l 5 + h 6 + l 6 + h 7 + l 7

end Cert.Codebook

end
-- ==== Proof.KV.Host.lean ====
/-
  What the region finds in its three input arrays, index by index, at the ideal instance: the clipped code words, and
  the two padded tables (the centroids' heads and remainders, each plane's 32 columns placed at offset 32·plane).
-/
import proofs.«403901_j30253749633338_3_alg».proof.Proof.KI.Around
import proofs.«403901_j30253749633338_3_alg».proof.Proof.Spec
import Idealize.ShloMosaic.Lib.StableHlo.Run
import Idealize.ShloMosaic.Lib.Pipeline.Value
import Idealize.ShloMosaic.Lib.KernelVsHost
import Idealize.ShloMosaic.Lib.ValueLayout

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Fr Cert.Codebook

/-- The code words before clipping, as @main computes them from the token ids `x0` and the code table `x1`: the
    gather of the table's rows at the wrapped ids, then each negative word raised by 256. -/
def Wk (x0 : S512x200.Idx → BitVec 32) (x1 : S1000001x8.Idx → BitVec 32) : S512x200x8.Idx → BitVec 32 :=
  let ids : S512x200.Idx → BitVec 32 :=
    select (cmpi .slt x0 (broadcastInDim S512x200 ![] bcast_S_S512x200 (constantI S_ 32 0#32)))
      (addi x0 (broadcastInDim S512x200 ![] bcast_S_S512x200 (constantI S_ 32 1000001#32))) x0
  let X : S512x200x8.Idx → BitVec 32 :=
    Host.gather gather_S1000001x8_S512x200x1_S512x200x8_2_0_n_n_0_2_18 x1
      (broadcastInDim S512x200x1 ![0, 1] bcast_S512x200_S512x200x1_0_1 ids)
  select (cmpi .slt X (broadcastInDim S512x200x8 ![] bcast_S_S512x200x8 (constantI S_ 32 0#32)))
    (addi X (broadcastInDim S512x200x8 ![] bcast_S_S512x200x8 (constantI S_ 32 256#32))) X

variable (m : (ℓ : Loc nD τ sig) → Buf (Elt Ideal) ℓ)

/-- The three argument arrays as launched, at their literal types. -/
abbrev ids (c : Dev nD) : S512x200.Idx → BitVec 32 := m ((c.tc : Thread nD τ).loc main_arg0)
abbrev tbl (c : Dev nD) : S1000001x8.Idx → BitVec 32 := m ((c.tc : Thread nD τ).loc main_arg1)
abbrev cen (c : Dev nD) : S8x256x32.Idx → EReal := m ((c.tc : Thread nD τ).loc main_arg2)

/-! ## One plane's 32 columns placed at an offset in 256, and the eight planes stacked -/

section Stack
variable {α : Type}

/-- Plane `P` of a table of eight planes, cut out, flattened to 256 × 32, padded to 256 columns with its own columns at
    offset 32·P, and given a leading unit axis: at (0, q, j) it holds the table's (P, q, j − 32P) when 32P ≤ j < 32P + 32,
    else the padding value. -/
theorem paddedPlane_apply (P : Nat) (hP : P < 8) (off : Fin 3 → Nat) (lo hi : Fin 2 → Nat)
    (hs : S8x256x32.Slices off S1x256x32) (hc : S1x256x32.ShapeCasts S256x32)
    (hp : S256x32.Pads lo hi (![0, 0] : Fin 2 → Nat) S256x256) (hu : 0 < S_.numel)
    (hb : S256x256.BroadcastsInDim S1x256x256 (![1, 2] : Fin 2 → Fin S1x256x256.rank))
    (ho0 : off 0 = P) (ho1 : off 1 = 0) (ho2 : off 2 = 0) (hl0 : lo 0 = 0) (hl1 : lo 1 = 32 * P)
    (T : S8x256x32.Idx → α) (z : S_.Idx → α) (u : Fin 1) (q : Fin 256) (j : Fin 256) :
    broadcastInDim S1x256x256 ![1, 2] hb
        (pad S256x256 lo hi ![0, 0] (shapeCast S256x32 (extractStridedSlice S1x256x32 off T hs) hc) z hp hu) (ix3 u q j)
      = if h : 32 * P ≤ j.val ∧ j.val < 32 * P + 32 then
          T (ix3 (⟨P, hP⟩ : Fin 8) q (⟨j.val - 32 * P, by omega⟩ : Fin 32))
        else z ix0 := by
  refine (broadcastInDim_apply _ hb _ (ix3 u q j) (ix2 q j) ?_).trans ?_
  · intro a
    match a with
    | ⟨0, _⟩ => rfl
    | ⟨1, _⟩ => rfl
  by_cases h : 32 * P ≤ j.val ∧ j.val < 32 * P + 32
  · rw [dif_pos h]
    refine (pad_apply_of_inside lo hi ![0, 0] _ z hp hu (ix2 q j) (ix2 q (⟨j.val - 32 * P, by omega⟩ : Fin 32)) ?_).trans ?_
    · intro a
      match a with
      | ⟨0, _⟩ => show q.val = lo 0 + q.val * (0 + 1); rw [hl0]; omega
      | ⟨1, _⟩ => show j.val = lo 1 + (j.val - 32 * P) * (0 + 1); rw [hl1]; omega
    refine (shapeCast_apply _ hc (ix2 q (⟨j.val - 32 * P, by omega⟩ : Fin 32))
      (ix3 (0 : Fin 1) q (⟨j.val - 32 * P, by omega⟩ : Fin 32)) ?_).trans ?_
    · rw [Shape.rowMajor_val_three, Shape.rowMajor_val_two]
      show (0 * 256 + q.val) * 32 + (j.val - 32 * P) = q.val * 32 + (j.val - 32 * P)
      omega
    refine extractStridedSlice_apply off T hs _ (ix3 (⟨P, hP⟩ : Fin 8) q (⟨j.val - 32 * P, by omega⟩ : Fin 32)) ?_
    intro a
    match a with
    | ⟨0, _⟩ => show P = off 0 + 0; omega
    | ⟨1, _⟩ => show q.val = off 1 + q.val; omega
    | ⟨2, _⟩ => show j.val - 32 * P = off 2 + (j.val - 32 * P); omega
  · rw [dif_neg h]
    refine (pad_apply_of_not_inside (s := S256x32) (t := S256x256) lo hi ![0, 0] _ z hp hu (ix2 q j) (1 : Fin 2) ?_).trans (congrArg z (eq_ix0 _))
    intro hin
    have h1 : lo 1 ≤ j.val := hin.1
    have h3 : (j.val - lo 1) / (0 + 1) < 32 := hin.2.2
    rw [hl1] at h1 h3
    rw [Nat.zero_add, Nat.div_one] at h3
    exact h ⟨h1, by omega⟩

/-- Eight arrays with a leading unit axis stacked along it: entry (p, q, j) of the stack is entry (0, q, j) of array `p`. -/
theorem stack8_apply (f : Fin 8 → S1x256x256.Idx → α)
    (h : Shape.Concatenates [S1x256x256, S1x256x256, S1x256x256, S1x256x256, S1x256x256, S1x256x256, S1x256x256, S1x256x256] S8x256x256 0)
    (p : Fin 8) (q : Fin 256) (j : Fin 256) :
    concatenate S8x256x256 0 [⟨S1x256x256, f 0⟩, ⟨S1x256x256, f 1⟩, ⟨S1x256x256, f 2⟩, ⟨S1x256x256, f 3⟩, ⟨S1x256x256, f 4⟩,
        ⟨S1x256x256, f 5⟩, ⟨S1x256x256, f 6⟩, ⟨S1x256x256, f 7⟩] h (ix3 p q j)
      = f p (ix3 (0 : Fin 1) q j) :=
  concatenate_ofFn_unit_apply (t := S8x256x256) (s₁ := S1x256x256) 0 f h rfl rfl (ix3 p q j) p rfl (ix3 (0 : Fin 1) q j)
    (fun b hb => match b with
      | ⟨0, _⟩ => absurd rfl hb
      | ⟨1, _⟩ => rfl
      | ⟨2, _⟩ => rfl)

end Stack

section Planes
variable {α : Type}

/-- The eight padded planes of a table `T` with padding value `z`: plane `p`'s 32 columns sit at offset 32·p of 256. -/
def padPlanes (T : S8x256x32.Idx → α) (z : S_.Idx → α) : Fin 8 → S1x256x256.Idx → α :=
  ![broadcastInDim S1x256x256 ![1, 2] bcast_S256x256_S1x256x256_1_2
      (pad S256x256 ![0, 0] ![0, 224] ![0, 0]
        (shapeCast S256x32 (extractStridedSlice S1x256x32 ![0, 0, 0] T slices_S8x256x32_S1x256x32_0_0_0) shapeCasts_S1x256x32_S256x32)
        z pads_S256x32_S256x256_000_02240 h_S_),
    broadcastInDim S1x256x256 ![1, 2] bcast_S256x256_S1x256x256_1_2
      (pad S256x256 ![0, 32] ![0, 192] ![0, 0]
        (shapeCast S256x32 (extractStridedSlice S1x256x32 ![1, 0, 0] T slices_S8x256x32_S1x256x32_1_0_0) shapeCasts_S1x256x32_S256x32)
        z pads_S256x32_S256x256_000_321920 h_S_),
    broadcastInDim S1x256x256 ![1, 2] bcast_S256x256_S1x256x256_1_2
      (pad S256x256 ![0, 64] ![0, 160] ![0, 0]
        (shapeCast S256x32 (extractStridedSlice S1x256x32 ![2, 0, 0] T slices_S8x256x32_S1x256x32_2_0_0) shapeCasts_S1x256x32_S256x32)
        z pads_S256x32_S256x256_000_641600 h_S_),
    broadcastInDim S1x256x256 ![1, 2] bcast_S256x256_S1x256x256_1_2
      (pad S256x256 ![0, 96] ![0, 128] ![0, 0]
        (shapeCast S256x32 (extractStridedSlice S1x256x32 ![3, 0, 0] T slices_S8x256x32_S1x256x32_3_0_0) shapeCasts_S1x256x32_S256x32)
        z pads_S256x32_S256x256_000_961280 h_S_),
    broadcastInDim S1x256x256 ![1, 2] bcast_S256x256_S1x256x256_1_2
      (pad S256x256 ![0, 128] ![0, 96] ![0, 0]
        (shapeCast S256x32 (extractStridedSlice S1x256x32 ![4, 0, 0] T slices_S8x256x32_S1x256x32_4_0_0) shapeCasts_S1x256x32_S256x32)
        z pads_S256x32_S256x256_000_128960 h_S_),
    broadcastInDim S1x256x256 ![1, 2] bcast_S256x256_S1x256x256_1_2
      (pad S256x256 ![0, 160] ![0, 64] ![0, 0]
        (shapeCast S256x32 (extractStridedSlice S1x256x32 ![5, 0, 0] T slices_S8x256x32_S1x256x32_5_0_0) shapeCasts_S1x256x32_S256x32)
        z pads_S256x32_S256x256_000_160640 h_S_),
    broadcastInDim S1x256x256 ![1, 2] bcast_S256x256_S1x256x256_1_2
      (pad S256x256 ![0, 192] ![0, 32] ![0, 0]
        (shapeCast S256x32 (extractStridedSlice S1x256x32 ![6, 0, 0] T slices_S8x256x32_S1x256x32_6_0_0) shapeCasts_S1x256x32_S256x32)
        z pads_S256x32_S256x256_000_192320 h_S_),
    broadcastInDim S1x256x256 ![1, 2] bcast_S256x256_S1x256x256_1_2
      (pad S256x256 ![0, 224] ![0, 0] ![0, 0]
        (shapeCast S256x32 (extractStridedSlice S1x256x32 ![7, 0, 0] T slices_S8x256x32_S1x256x32_7_0_0) shapeCasts_S1x256x32_S256x32)
        z pads_S256x32_S256x256_000_22400 h_S_)]

/-- The eight padded planes stacked along a new leading axis. -/
def padStack (T : S8x256x32.Idx → α) (z : S_.Idx → α) : S8x256x256.Idx → α :=
  concatenate S8x256x256 0 [⟨S1x256x256, padPlanes T z 0⟩, ⟨S1x256x256, padPlanes T z 1⟩, ⟨S1x256x256, padPlanes T z 2⟩,
    ⟨S1x256x256, padPlanes T z 3⟩, ⟨S1x256x256, padPlanes T z 4⟩, ⟨S1x256x256, padPlanes T z 5⟩, ⟨S1x256x256, padPlanes T z 6⟩,
    ⟨S1x256x256, padPlanes T z 7⟩]
    concatenates_S1x256x256_S1x256x256_S1x256x256_S1x256x256_S1x256x256_S1x256x256_S1x256x256_S1x256x256_S8x256x256_d0

/-- Padded plane `p` at (0, q, j): the table's (p, q, j − 32p) inside the plane's 32 columns, the padding value outside. -/
theorem padPlanes_apply (T : S8x256x32.Idx → α) (z : S_.Idx → α) (p : Fin 8) (u : Fin 1) (q : Fin 256) (j : Fin 256) :
    padPlanes T z p (ix3 u q j)
      = if h : 32 * p.val ≤ j.val ∧ j.val < 32 * p.val + 32 then
          T (ix3 p q (⟨j.val - 32 * p.val, by omega⟩ : Fin 32))
        else z ix0 := by
  fin_cases p
  · exact paddedPlane_apply 0 (by decide) ![0, 0, 0] ![0, 0] ![0, 224] slices_S8x256x32_S1x256x32_0_0_0
      shapeCasts_S1x256x32_S256x32 pads_S256x32_S256x256_000_02240 h_S_ bcast_S256x256_S1x256x256_1_2 rfl rfl rfl rfl rfl T z u q j
  · exact paddedPlane_apply 1 (by decide) ![1, 0, 0] ![0, 32] ![0, 192] slices_S8x256x32_S1x256x32_1_0_0
      shapeCasts_S1x256x32_S256x32 pads_S256x32_S256x256_000_321920 h_S_ bcast_S256x256_S1x256x256_1_2 rfl rfl rfl rfl rfl T z u q j
  · exact paddedPlane_apply 2 (by decide) ![2, 0, 0] ![0, 64] ![0, 160] slices_S8x256x32_S1x256x32_2_0_0
      shapeCasts_S1x256x32_S256x32 pads_S256x32_S256x256_000_641600 h_S_ bcast_S256x256_S1x256x256_1_2 rfl rfl rfl rfl rfl T z u q j
  · exact paddedPlane_apply 3 (by decide) ![3, 0, 0] ![0, 96] ![0, 128] slices_S8x256x32_S1x256x32_3_0_0
      shapeCasts_S1x256x32_S256x32 pads_S256x32_S256x256_000_961280 h_S_ bcast_S256x256_S1x256x256_1_2 rfl rfl rfl rfl rfl T z u q j
  · exact paddedPlane_apply 4 (by decide) ![4, 0, 0] ![0, 128] ![0, 96] slices_S8x256x32_S1x256x32_4_0_0
      shapeCasts_S1x256x32_S256x32 pads_S256x32_S256x256_000_128960 h_S_ bcast_S256x256_S1x256x256_1_2 rfl rfl rfl rfl rfl T z u q j
  · exact paddedPlane_apply 5 (by decide) ![5, 0, 0] ![0, 160] ![0, 64] slices_S8x256x32_S1x256x32_5_0_0
      shapeCasts_S1x256x32_S256x32 pads_S256x32_S256x256_000_160640 h_S_ bcast_S256x256_S1x256x256_1_2 rfl rfl rfl rfl rfl T z u q j
  · exact paddedPlane_apply 6 (by decide) ![6, 0, 0] ![0, 192] ![0, 32] slices_S8x256x32_S1x256x32_6_0_0
      shapeCasts_S1x256x32_S256x32 pads_S256x32_S256x256_000_192320 h_S_ bcast_S256x256_S1x256x256_1_2 rfl rfl rfl rfl rfl T z u q j
  · exact paddedPlane_apply 7 (by decide) ![7, 0, 0] ![0, 224] ![0, 0] slices_S8x256x32_S1x256x32_7_0_0
      shapeCasts_S1x256x32_S256x32 pads_S256x32_S256x256_000_22400 h_S_ bcast_S256x256_S1x256x256_1_2 rfl rfl rfl rfl rfl T z u q j

/-- The stack at (p, q, j): the table's (p, q, j − 32p) when 32p ≤ j < 32p + 32, else the padding value. -/
theorem padStack_apply (T : S8x256x32.Idx → α) (z : S_.Idx → α) (p : Fin 8) (q : Fin 256) (j : Fin 256) :
    padStack T z (ix3 p q j)
      = if h : 32 * p.val ≤ j.val ∧ j.val < 32 * p.val + 32 then
          T (ix3 p q (⟨j.val - 32 * p.val, by omega⟩ : Fin 32))
        else z ix0 :=
  (stack8_apply (padPlanes T z) _ p q j).trans (padPlanes_apply T z p 0 q j)

end Planes

/-! ## The operations before the region, in three parts -/

/-- The stacking operation's result: the stack of what its eight operand buffers hold. -/
theorem stackHi_result (hxs hy) (W : Valuation τ sig (Elt Ideal)) :
    (StableHlo.nary (τ := τ) ![main_v42, main_v43, main_v44, main_v45, main_v46, main_v47, main_v48, main_v49] main_v50 (fun u => concatenate S8x256x256 0 [⟨S1x256x256, u 0⟩, ⟨S1x256x256, u 1⟩, ⟨S1x256x256, u 2⟩, ⟨S1x256x256, u 3⟩, ⟨S1x256x256, u 4⟩, ⟨S1x256x256, u 5⟩, ⟨S1x256x256, u 6⟩, ⟨S1x256x256, u 7⟩] concatenates_S1x256x256_S1x256x256_S1x256x256_S1x256x256_S1x256x256_S1x256x256_S1x256x256_S1x256x256_S8x256x256_d0) hxs hy).result W (no_index (Proc.devRef .tc main_v50))
      = concatenate S8x256x256 0 [⟨S1x256x256, W (Proc.devRef .tc main_v42)⟩, ⟨S1x256x256, W (Proc.devRef .tc main_v43)⟩, ⟨S1x256x256, W (Proc.devRef .tc main_v44)⟩, ⟨S1x256x256, W (Proc.devRef .tc main_v45)⟩, ⟨S1x256x256, W (Proc.devRef .tc main_v46)⟩, ⟨S1x256x256, W (Proc.devRef .tc main_v47)⟩, ⟨S1x256x256, W (Proc.devRef .tc main_v48)⟩, ⟨S1x256x256, W (Proc.devRef .tc main_v49)⟩]
          concatenates_S1x256x256_S1x256x256_S1x256x256_S1x256x256_S1x256x256_S1x256x256_S1x256x256_S1x256x256_S8x256x256_d0 := by
  rw [StableHlo.nary_result]; rfl

/-- The stacking operation's result: the stack of what its eight operand buffers hold. -/
theorem stackLo_result (hxs hy) (W : Valuation τ sig (Elt Ideal)) :
    (StableHlo.nary (τ := τ) ![main_v75, main_v76, main_v77, main_v78, main_v79, main_v80, main_v81, main_v82] main_v83 (fun u => concatenate S8x256x256 0 [⟨S1x256x256, u 0⟩, ⟨S1x256x256, u 1⟩, ⟨S1x256x256, u 2⟩, ⟨S1x256x256, u 3⟩, ⟨S1x256x256, u 4⟩, ⟨S1x256x256, u 5⟩, ⟨S1x256x256, u 6⟩, ⟨S1x256x256, u 7⟩] concatenates_S1x256x256_S1x256x256_S1x256x256_S1x256x256_S1x256x256_S1x256x256_S1x256x256_S1x256x256_S8x256x256_d0) hxs hy).result W (no_index (Proc.devRef .tc main_v83))
      = concatenate S8x256x256 0 [⟨S1x256x256, W (Proc.devRef .tc main_v75)⟩, ⟨S1x256x256, W (Proc.devRef .tc main_v76)⟩, ⟨S1x256x256, W (Proc.devRef .tc main_v77)⟩, ⟨S1x256x256, W (Proc.devRef .tc main_v78)⟩, ⟨S1x256x256, W (Proc.devRef .tc main_v79)⟩, ⟨S1x256x256, W (Proc.devRef .tc main_v80)⟩, ⟨S1x256x256, W (Proc.devRef .tc main_v81)⟩, ⟨S1x256x256, W (Proc.devRef .tc main_v82)⟩]
          concatenates_S1x256x256_S1x256x256_S1x256x256_S1x256x256_S1x256x256_S1x256x256_S1x256x256_S1x256x256_S8x256x256_d0 := by
  rw [StableHlo.nary_result]; rfl

/-- The contents after two stretches of operations are those after the second, from those after the first. -/
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => simp only [List.cons_append, StableHlo.after_cons, ih]

/-- The operations that compute the code words, -/
abbrev opsCodes : List (HloOp τ sig (Elt Ideal)) := List.flatten [hostOps0, hostOps0_1, hostOps0_2, hostOps0_3]
/-- those that build the head table (and begin the remainder table), -/
abbrev opsHi : List (HloOp τ sig (Elt Ideal)) := List.flatten [hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]
/-- and those that finish the remainder table. -/
abbrev opsLo : List (HloOp τ sig (Elt Ideal)) := List.flatten [hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]

theorem preOps_split : List.flatten (preOps (F := Ideal)) = opsCodes ++ (opsHi ++ opsLo) := by
  simp only [preOps, opsCodes, opsHi, opsLo, List.flatten_cons, List.flatten_nil, List.append_nil, List.append_assoc]

/-- The code-word operations leave the centroid array as it was. -/
theorem opsCodes_arg2 (W : Valuation τ sig (Elt Ideal)) :
    StableHlo.after opsCodes W (Proc.devRef .tc main_arg2) = W (Proc.devRef .tc main_arg2) :=
  StableHlo.after_of_forall_not_mem (b := Proc.devRef .tc main_arg2) opsCodes _ (List.forall_iff_forall_mem.mp (by
    simp only [opsCodes, hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The code words -/

set_option maxHeartbeats 4000000 in
/-- The flat code array is the reshape of the clipped, wrapped code words. -/
theorem e13 (c : Dev nD) :
    (V m c main_v13 : S102400x8.Idx → BitVec 32)
      = shapeCast S102400x8 (minsi (broadcastInDim S512x200x8 ![] bcast_S_S512x200x8 (constantI S_ 32 255#32))
          (maxsi (broadcastInDim S512x200x8 ![] bcast_S_S512x200x8 (constantI S_ 32 0#32)) (Wk (ids m c) (tbl m c)))) shapeCasts_S512x200x8_S102400x8 := by
  dsimp only [V, V0, preOps]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, List.flatten_cons, List.flatten_nil, List.append_nil, List.cons_append, List.nil_append]
  after_results
  rfl

/-- Row `R` of the flat code array is token (R / 200, R % 200); its word in plane `k` is that token's code word, clipped. -/
theorem codes_apply (c : Dev nD) (R : Fin 102400) (k : Fin 8) :
    V m c main_v13 (ix2 R k)
      = clip (Wk (ids m c) (tbl m c)
          (ix3 (⟨R.val / 200, by have := R.isLt; omega⟩ : Fin 512) (⟨R.val % 200, Nat.mod_lt _ (by decide)⟩ : Fin 200) k)) := by
  refine (congrFun (e13 m c) (ix2 R k)).trans ?_
  refine (shapeCast_apply _ _ (ix2 R k)
    (ix3 (⟨R.val / 200, by have := R.isLt; omega⟩ : Fin 512) (⟨R.val % 200, Nat.mod_lt _ (by decide)⟩ : Fin 200) k) ?_).trans ?_
  · rw [Shape.rowMajor_val_three, Shape.rowMajor_val_two]
    show (R.val / 200 * 200 + R.val % 200) * 8 + k.val = R.val * 8 + k.val
    have := Nat.div_add_mod R.val 200
    omega
  · rfl

/-! ## The two tables -/

set_option maxHeartbeats 4000000 in
/-- From any contents `W`, the head-table operations leave in the head table the padded stack of the centroid array's
    entries (the format change is the identity), padded with the conversion of the integer 0. -/
theorem e50_mid (W : Valuation τ sig (Elt Ideal)) :
    (StableHlo.after opsHi W (Proc.devRef .tc main_v50) : S8x256x256.Idx → EReal)
      = padStack (α := EReal) (truncf (F := Ideal) .bf16 (W (Proc.devRef .tc main_arg2)) bitsLt_bf16_f32) (sitofp (F := Ideal) .bf16 (constantI S_ 32 0#32)) := by
  simp only [opsHi, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  simp (disch := decide) only [StableHlo.after_cons, StableHlo.after_nil, StableHlo.nullary_result', StableHlo.unary_result', StableHlo.binary_result',
    StableHlo.ternary_result', StableHlo.reshape_result', stackHi_result, stackLo_result, StableHlo.nullary_result_ne', StableHlo.unary_result_ne',
    StableHlo.binary_result_ne', StableHlo.ternary_result_ne', StableHlo.reshape_result_ne', StableHlo.nary_result_ne']
  rfl

set_option maxHeartbeats 4000000 in
/-- What the region finds in the head table. -/
theorem e50 (c : Dev nD) :
    (V m c main_v50 : S8x256x256.Idx → EReal)
      = padStack (α := EReal) (truncf (F := Ideal) .bf16 (cen m c) bitsLt_bf16_f32) (sitofp (F := Ideal) .bf16 (constantI S_ 32 0#32)) := by
  show StableHlo.after (List.flatten (preOps (F := Ideal))) (fun b => m (c, b)) (Proc.devRef .tc main_v50) = _
  rw [preOps_split, after_append, after_append,
    StableHlo.after_of_forall_not_mem (b := Proc.devRef .tc main_v50) opsLo _ (List.forall_iff_forall_mem.mp (by
    simp only [opsLo, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))),
    e50_mid, opsCodes_arg2]

set_option maxHeartbeats 8000000 in
/-- From any contents `W`, the head-table and remainder-table operations together leave in the remainder table the
    padded stack of the centroid array's remainders: each entry minus its own head. -/
theorem e83_mid (W : Valuation τ sig (Elt Ideal)) :
    (StableHlo.after (opsHi ++ opsLo) W (Proc.devRef .tc main_v83) : S8x256x256.Idx → EReal)
      = padStack (α := EReal)
          (truncf (F := Ideal) .bf16 (subf (W (Proc.devRef .tc main_arg2))
            (extf (F := Ideal) .f32 (truncf (F := Ideal) .bf16 (W (Proc.devRef .tc main_arg2)) bitsLt_bf16_f32) bitsLt_bf16_f32)) bitsLt_bf16_f32)
          (sitofp (F := Ideal) .bf16 (constantI S_ 32 0#32)) := by
  simp only [opsHi, opsLo, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, List.flatten_cons, List.flatten_nil, List.append_nil, List.cons_append, List.nil_append]
  simp (disch := decide) only [StableHlo.after_cons, StableHlo.after_nil, StableHlo.nullary_result', StableHlo.unary_result', StableHlo.binary_result',
    StableHlo.ternary_result', StableHlo.reshape_result', stackHi_result, stackLo_result, StableHlo.nullary_result_ne', StableHlo.unary_result_ne',
    StableHlo.binary_result_ne', StableHlo.ternary_result_ne', StableHlo.reshape_result_ne', StableHlo.nary_result_ne']
  rfl

set_option maxHeartbeats 4000000 in
/-- What the region finds in the remainder table. -/
theorem e83 (c : Dev nD) :
    (V m c main_v83 : S8x256x256.Idx → EReal)
      = padStack (α := EReal)
          (truncf (F := Ideal) .bf16 (subf (cen m c)
            (extf (F := Ideal) .f32 (truncf (F := Ideal) .bf16 (cen m c) bitsLt_bf16_f32) bitsLt_bf16_f32)) bitsLt_bf16_f32)
          (sitofp (F := Ideal) .bf16 (constantI S_ 32 0#32)) := by
  show StableHlo.after (List.flatten (preOps (F := Ideal))) (fun b => m (c, b)) (Proc.devRef .tc main_v83) = _
  rw [preOps_split, after_append, e83_mid, opsCodes_arg2]

/-- Two case distinctions on one condition agree when their branches do. -/
theorem dite_both {P : Prop} [Decidable P] {α : Type} (a b : P → α) (z w : α) (hab : ∀ h, a h = b h) (hzw : z = w) :
    (if h : P then a h else z) = (if h : P then b h else w) := by
  by_cases h : P
  · rw [dif_pos h, dif_pos h]; exact hab h
  · rw [dif_neg h, dif_neg h]; exact hzw

/-- The padding value: the integer 0 converted is the real 0. -/
theorem padValue_eq : (sitofp (F := Ideal) .bf16 (constantI S_ 32 0#32) : S_.Idx → EReal) ix0 = 0 := by
  show (((0#32 : BitVec 32).toInt : ℝ) : EReal) = 0
  rw [show (0#32 : BitVec 32).toInt = 0 from by decide]
  simp

/-- The head table: plane `p`, row `q`, column `j` holds the centroid entry (p, q, j − 32p) when 32p ≤ j < 32p + 32, else 0. -/
theorem hi_apply (c : Dev nD) (p : Fin 8) (q : Fin 256) (j : Fin 256) :
    V m c main_v50 (ix3 p q j)
      = if h : 32 * p.val ≤ j.val ∧ j.val < 32 * p.val + 32 then
          cen m c (ix3 p q (⟨j.val - 32 * p.val, by omega⟩ : Fin 32))
        else (0 : EReal) := by
  refine (congrFun (e50 m c) (ix3 p q j)).trans ((padStack_apply _ _ p q j).trans ?_)
  exact dite_both _ _ _ _ (fun h => rfl) padValue_eq

/-- The remainder table: the same places hold the centroid entry minus itself (the format change is the identity on
    extended reals), every other place 0. -/
theorem lo_apply (c : Dev nD) (p : Fin 8) (q : Fin 256) (j : Fin 256) :
    V m c main_v83 (ix3 p q j)
      = if h : 32 * p.val ≤ j.val ∧ j.val < 32 * p.val + 32 then
          cen m c (ix3 p q (⟨j.val - 32 * p.val, by omega⟩ : Fin 32))
            - cen m c (ix3 p q (⟨j.val - 32 * p.val, by omega⟩ : Fin 32))
        else (0 : EReal) := by
  refine (congrFun (e83 m c) (ix3 p q j)).trans ((padStack_apply _ _ p q j).trans ?_)
  exact dite_both _ _ _ _ (fun h => rfl) padValue_eq

end Cert.KernelIdeal.Val

end
-- ==== Proof.KV.Payload.lean ====
/-
  The accumulator read at one entry, at the ideal instance. Each plane's one-hot row has a single 1, at the column the
  code word names, so each matrix product picks one row of its table; the accumulator at (r, j) is the sum, in the
  kernel's order, of the picked head entry and the picked remainder entry of every plane.
-/
import proofs.«403901_j30253749633338_3_alg».proof.Proof.KI.Body
import proofs.«403901_j30253749633338_3_alg».proof.Proof.Spec
import Idealize.ShloMosaic.Lib.Pipeline.Value
import Idealize.ShloMosaic.Lib.ValueLayout
import Idealize.ShloMosaic.PureOps.Ideal.Laws

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Fr Cert.Codebook

section Defs
variable {F : FTy → Type} [FloatOps F]

/-- The dimension numbers of every product of the body: a [4096, 256] by [256, 256] product contracting the left
    factor's columns with the right factor's rows. -/
abbrev accDot := dot_S4096x256_S256x256_S4096x256_1_0_0_1_n_n

/-- The one-hot matrix of plane `k`: column `k` of the converted code block compared for equality, entry by entry,
    against the converted column indices, the outcome read as a number. -/
def ohv (k : Nat) (hs : S4096x8.Slices ![0, k] S4096x1) (v2 : FVec F S4096x8 .bf16) (v4 : FVec F S1x256 .bf16) :
    FVec F S4096x256 .bf16 :=
  truncf .bf16 (sitofp .f32 (extui 32 (cmpf .oeq
    (broadcastTo S4096x256 (extractStridedSlice S4096x1 ![0, k] v2 hs) broadcasts_S4096x1_S4096x256)
    (broadcastTo S4096x256 v4 broadcasts_S1x256_S4096x256)) natLt_1_32)) bitsLt_bf16_f32

/-- One plane's contribution: to the accumulator `a` add the product of the one-hot matrix with the head plane, then
    with the remainder plane. -/
def planeStep (a : FVec F S4096x256 .f32) (oh : FVec F S4096x256 .bf16) (hp lp : Vec F S1x256x256 .bf16) :
    FVec F S4096x256 .f32 :=
  addf (addf a (matmul accDot none oh (shapeCast S256x256 hp shapeCasts_S1x256x256_S256x256) (constant S4096x256 .f32 0x00000000#32)))
    (matmul accDot none oh (shapeCast S256x256 lp shapeCasts_S1x256x256_S256x256) (constant S4096x256 .f32 0x00000000#32))

/-- The accumulator is the zero block after the eight planes' steps, in order. -/
theorem acc_eq (x0 : Vec F S4096x8 .i32) (x1 x2 : Vec F S8x256x256 .bf16) :
    acc x0 x1 x2 =
      planeStep (planeStep (planeStep (planeStep (planeStep (planeStep (planeStep (planeStep
        (broadcast S4096x256 (Scalar.ofBits .f32 0x00000000#32))
        (ohv 0 slices_S4096x8_o0_0_S4096x1 (k0_pay2 (View.ld x0 rCodes)) k0_pay3) (View.ld x1 rPlane0) (View.ld x2 rPlane0))
        (ohv 1 slices_S4096x8_o0_1_S4096x1 (k0_pay2 (View.ld x0 rCodes)) k0_pay3) (View.ld x1 rPlane1) (View.ld x2 rPlane1))
        (ohv 2 slices_S4096x8_o0_2_S4096x1 (k0_pay2 (View.ld x0 rCodes)) k0_pay3) (View.ld x1 rPlane2) (View.ld x2 rPlane2))
        (ohv 3 slices_S4096x8_o0_3_S4096x1 (k0_pay2 (View.ld x0 rCodes)) k0_pay3) (View.ld x1 rPlane3) (View.ld x2 rPlane3))
        (ohv 4 slices_S4096x8_o0_4_S4096x1 (k0_pay2 (View.ld x0 rCodes)) k0_pay3) (View.ld x1 rPlane4) (View.ld x2 rPlane4))
        (ohv 5 slices_S4096x8_o0_5_S4096x1 (k0_pay2 (View.ld x0 rCodes)) k0_pay3) (View.ld x1 rPlane5) (View.ld x2 rPlane5))
        (ohv 6 slices_S4096x8_o0_6_S4096x1 (k0_pay2 (View.ld x0 rCodes)) k0_pay3) (View.ld x1 rPlane6) (View.ld x2 rPlane6))
        (ohv 7 slices_S4096x8_o0_7_S4096x1 (k0_pay2 (View.ld x0 rCodes)) k0_pay3) (View.ld x1 rPlane7) (View.ld x2 rPlane7) := by
  rfl

end Defs

section AtIdeal

/-- The operand indices of the product at output index `j` and contraction index `k`, axis by axis: the left factor is
    read at (row of `j`, `k`), the right factor at (`k`, column of `j`). -/
theorem accDot_lhs_0 (j : S4096x256.Idx) (k : accDot.contr.Idx) : (accDot.lhsIdx j k 0 : ℕ) = j 0 := by
  simp [DotDims.lhsIdx, accDot, dot_S4096x256_S256x256_S4096x256_1_0_0_1_n_n]; rfl
theorem accDot_lhs_1 (j : S4096x256.Idx) (k : accDot.contr.Idx) : (accDot.lhsIdx j k 1 : ℕ) = k ⟨0, by decide⟩ := by
  simp [DotDims.lhsIdx, accDot, dot_S4096x256_S256x256_S4096x256_1_0_0_1_n_n]; rfl
theorem accDot_rhs_0 (j : S4096x256.Idx) (k : accDot.contr.Idx) : (accDot.rhsIdx j k 0 : ℕ) = k ⟨0, by decide⟩ := by
  simp [DotDims.rhsIdx, accDot, dot_S4096x256_S256x256_S4096x256_1_0_0_1_n_n]; rfl
theorem accDot_rhs_1 (j : S4096x256.Idx) (k : accDot.contr.Idx) : (accDot.rhsIdx j k 1 : ℕ) = j 1 := by
  simp [DotDims.rhsIdx, accDot, dot_S4096x256_S256x256_S4096x256_1_0_0_1_n_n]; rfl

/-- The left factor's index at output (r, j) and contraction coordinate c is (r, c). -/
theorem accDot_lhs_at (r : Fin 4096) (j : Fin 256) (c : Fin 256) :
    accDot.lhsIdx (ix2 r j) ((contrEquiv1 accDot 256 rfl rfl).symm c) = ix2 r c := by
  apply Shape.idx_ext₂
  · rw [accDot_lhs_0]
  · rw [accDot_lhs_1]; exact contrEquiv1_symm_val accDot 256 rfl rfl c

/-- The right factor's index at output (r, j) and contraction coordinate c is (c, j). -/
theorem accDot_rhs_at (r : Fin 4096) (j : Fin 256) (c : Fin 256) :
    accDot.rhsIdx (ix2 r j) ((contrEquiv1 accDot 256 rfl rfl).symm c) = ix2 c j := by
  apply Shape.idx_ext₂
  · rw [accDot_rhs_0]; exact contrEquiv1_symm_val accDot 256 rfl rfl c
  · rw [accDot_rhs_1]

/-- A product whose left factor's row is zero except for a one at column c0 picks row c0 of the right factor. -/
theorem matmul_pick (oh : FVec Ideal S4096x256 .bf16) (P : FVec Ideal S256x256 .bf16) (r : Fin 4096) (j c0 : Fin 256)
    (hoh : ∀ c : Fin 256, oh (ix2 r c) = if c = c0 then 1 else 0) :
    matmul accDot none oh P (constant S4096x256 .f32 0x00000000#32) (ix2 r j) = P (ix2 c0 j) := by
  show FloatOps.matmul accDot none oh P (constant S4096x256 .f32 0x00000000#32) (ix2 r j) = _
  rw [Ideal.matmul_constant_zero_apply, ← Equiv.sum_comp (contrEquiv1 accDot 256 rfl rfl).symm]
  rw [Finset.sum_eq_single c0]
  · rw [accDot_lhs_at, accDot_rhs_at, hoh, if_pos rfl, one_mul]
  · intro c _ hc
    rw [accDot_lhs_at, hoh, if_neg hc, zero_mul]
  · intro h; exact absurd (Finset.mem_univ _) h

end AtIdeal

section OneHot

/-- The signed value of the 32-bit word of a number below 256 is that number. -/
theorem toInt_ofNat_small (q : Fin 256) : (BitVec.ofNat 32 q.val).toInt = (q.val : ℤ) := by
  have hq := q.isLt
  unfold BitVec.toInt
  rw [BitVec.toNat_ofNat, Nat.mod_eq_of_lt (by omega), if_pos (by omega)]

/-- Comparing two integers as extended reals and reading the widened bit as a number is their equality's indicator. -/
theorem cmp_oeq_int (m n : ℤ) :
    (((((Ideal.cmp .oeq ((m : ℝ) : EReal) ((n : ℝ) : EReal)).setWidth 32).toInt : ℤ) : ℝ) : EReal)
      = if m = n then 1 else 0 := by
  by_cases h : m = n
  · subst h; simp [Ideal.cmp]
  · have hne : ((m : ℝ) : EReal) ≠ ((n : ℝ) : EReal) := fun e => h (by exact_mod_cast EReal.coe_eq_coe_iff.mp e)
    simp [Ideal.cmp, hne, h]

/-- The one-hot matrix of plane `k` at (r, q) is 1 when the code word of row r in plane k is q, else 0. -/
theorem ohv_apply (k : Fin 8) (hs : S4096x8.Slices ![0, k.val] S4096x1) (w : IVec S4096x8 32) (r : Fin 4096) (q : Fin 256) :
    ohv (F := Ideal) k.val hs (sitofp .bf16 w) k0_pay3 (ix2 r q)
      = if (w (ix2 r k)).toInt = (q.val : ℤ) then 1 else 0 := by
  have e1 : broadcastTo S4096x256 (extractStridedSlice S4096x1 ![0, k.val] (sitofp (F := Ideal) .bf16 w) hs)
      broadcasts_S4096x1_S4096x256 (ix2 r q) = (((w (ix2 r k)).toInt : ℝ) : EReal) := by
    refine (broadcastTo_apply _ _ (ix2 r q) (ix2 r (0 : Fin 1)) ?_).trans ?_
    · intro a
      match a with
      | ⟨0, _⟩ => rfl
      | ⟨1, _⟩ => rfl
    · refine (extractStridedSlice_apply _ _ hs (ix2 r (0 : Fin 1)) (ix2 r k) ?_).trans rfl
      intro a
      match a with
      | ⟨0, _⟩ => exact (Nat.zero_add _).symm
      | ⟨1, _⟩ => rfl
  have e2 : broadcastTo S4096x256 (k0_pay3 (F := Ideal)) broadcasts_S1x256_S4096x256 (ix2 r q)
      = (((q.val : ℤ) : ℝ) : EReal) := by
    refine (broadcastTo_1b_ab_apply _ _ r q).trans ?_
    show ((((iota .tc S1x256 32 [1] iota_S1x256_d1_w32 (ix2 (0 : Fin 1) q)).toInt : ℤ) : ℝ) : EReal) = _
    rw [iota_single_apply]
    show ((((BitVec.ofNat 32 q.val).toInt : ℤ) : ℝ) : EReal) = _
    rw [toInt_ofNat_small]
  show FloatOps.sitofp (F := Ideal) .f32 ((FloatOps.cmpf .oeq
      (broadcastTo S4096x256 (extractStridedSlice S4096x1 ![0, k.val] (sitofp (F := Ideal) .bf16 w) hs)
        broadcasts_S4096x1_S4096x256 (ix2 r q))
      (broadcastTo S4096x256 (k0_pay3 (F := Ideal)) broadcasts_S1x256_S4096x256 (ix2 r q))).setWidth 32) = _
  rw [e1, e2]
  exact cmp_oeq_int _ _

end OneHot

section Planes

/-- Plane k of a table block, as a matrix, at (q, j) is the block's entry (k, q, j). -/
theorem plane_apply (x : Vec Ideal S8x256x256 .bf16) (k : Nat) (hk : k < 8)
    (inb : ∀ a, (![k, 0, 0] : Fin 3 → Nat) a + S1x256x256.size a ≤ S8x256x256.size a) (q j : Fin 256) :
    shapeCast S256x256 (View.ld x (Rect.unit (s := S8x256x256) ![k, 0, 0] S1x256x256.size inb) : Vec Ideal S1x256x256 .bf16)
      shapeCasts_S1x256x256_S256x256 (ix2 q j) = x (ix3 (⟨k, hk⟩ : Fin 8) q j) := by
  refine (shapeCast_1ab_ab_apply _ _ q j).trans ?_
  show x ((Rect.unit (s := S8x256x256) ![k, 0, 0] S1x256x256.size inb).idx (ix3 (0 : Fin 1) q j)) = _
  refine congrArg x (funext fun a => Fin.ext ?_)
  match a with
  | ⟨0, _⟩ => show k + 1 * 0 = k; omega
  | ⟨1, _⟩ => show 0 + 1 * q.val = q.val; omega
  | ⟨2, _⟩ => show 0 + 1 * j.val = j.val; omega

/-- One plane's step at an entry, when the one-hot row has its one at column c0. -/
theorem planeStep_apply (a : FVec Ideal S4096x256 .f32) (oh : FVec Ideal S4096x256 .bf16) (hp lp : Vec Ideal S1x256x256 .bf16)
    (r : Fin 4096) (j c0 : Fin 256) (hoh : ∀ c : Fin 256, oh (ix2 r c) = if c = c0 then 1 else 0) :
    planeStep a oh hp lp (ix2 r j)
      = a (ix2 r j) + shapeCast S256x256 hp shapeCasts_S1x256x256_S256x256 (ix2 c0 j)
        + shapeCast S256x256 lp shapeCasts_S1x256x256_S256x256 (ix2 c0 j) := by
  show (a (ix2 r j) + matmul accDot none oh (shapeCast S256x256 hp shapeCasts_S1x256x256_S256x256) (constant S4096x256 .f32 0x00000000#32) (ix2 r j))
      + matmul accDot none oh (shapeCast S256x256 lp shapeCasts_S1x256x256_S256x256) (constant S4096x256 .f32 0x00000000#32) (ix2 r j) = _
  rw [matmul_pick _ _ r j c0 hoh, matmul_pick _ _ r j c0 hoh]

/-- A word within [0, 255] equals a column index exactly when that index is the row the word names. -/
theorem code_iff (x : BitVec 32) (h0 : 0 ≤ x.toInt) (h1 : x.toInt ≤ 255) (c : Fin 256) :
    x.toInt = (c.val : ℤ) ↔ c = codeOf x := by
  constructor
  · intro h; apply Fin.ext; show c.val = min x.toInt.toNat 255; omega
  · intro h
    have hc : c.val = min x.toInt.toNat 255 := congrArg Fin.val h
    omega

/-- The loaded code block, converted, is the conversion of the block itself. -/
theorem pay2_ld (x0 : Vec Ideal S4096x8 .i32) : k0_pay2 (F := Ideal) (View.ld x0 rCodes) = sitofp .bf16 x0 := by
  have h : (View.ld x0 rCodes : Vec Ideal S4096x8 .i32) = x0 :=
    View.ld_unit_zero (funext fun a => by match a with | ⟨0, _⟩ => rfl | ⟨1, _⟩ => rfl) _ x0
  show sitofp .bf16 (shapeCast S4096x8 (View.ld x0 rCodes : Vec Ideal S4096x8 .i32) shapeCasts_S4096x8_S4096x8) = _
  rw [h]
  exact congrArg (sitofp (F := Ideal) .bf16) (shapeCast_self x0 _)

/-- One plane's step on the loaded blocks at an entry. -/
theorem step_apply (x0 : Vec Ideal S4096x8 .i32) (x1 x2 : Vec Ideal S8x256x256 .bf16)
    (hx0 : ∀ (r : Fin 4096) (k : Fin 8), 0 ≤ (x0 (ix2 r k)).toInt ∧ (x0 (ix2 r k)).toInt ≤ 255)
    (k : Nat) (hk : k < 8) (hs : S4096x8.Slices ![0, k] S4096x1)
    (inb : ∀ a, (![k, 0, 0] : Fin 3 → Nat) a + S1x256x256.size a ≤ S8x256x256.size a)
    (a : FVec Ideal S4096x256 .f32) (r : Fin 4096) (j : Fin 256) :
    planeStep a (ohv k hs (sitofp .bf16 x0) k0_pay3)
        (View.ld x1 (Rect.unit (s := S8x256x256) ![k, 0, 0] S1x256x256.size inb))
        (View.ld x2 (Rect.unit (s := S8x256x256) ![k, 0, 0] S1x256x256.size inb)) (ix2 r j)
      = a (ix2 r j) + x1 (ix3 (⟨k, hk⟩ : Fin 8) (codeOf (x0 (ix2 r (⟨k, hk⟩ : Fin 8)))) j)
        + x2 (ix3 (⟨k, hk⟩ : Fin 8) (codeOf (x0 (ix2 r (⟨k, hk⟩ : Fin 8)))) j) := by
  rw [planeStep_apply a _ _ _ r j (codeOf (x0 (ix2 r (⟨k, hk⟩ : Fin 8)))) (fun c => by
    rw [ohv_apply (⟨k, hk⟩ : Fin 8) hs x0 r c]
    exact if_congr (code_iff _ (hx0 r _).1 (hx0 r _).2 c) rfl rfl)]
  rw [plane_apply x1 k hk inb, plane_apply x2 k hk inb]

end Planes

/-- For a block of code words all within [0, 255]: the accumulator at row `r`, column `j` is `planeSum` of the head
    table's and the remainder table's entries at (plane, the row the code word names, j). -/
theorem acc_apply (x0 : Vec Ideal S4096x8 .i32) (x1 x2 : Vec Ideal S8x256x256 .bf16)
    (hx0 : ∀ (r : Fin 4096) (k : Fin 8), 0 ≤ (x0 (ix2 r k)).toInt ∧ (x0 (ix2 r k)).toInt ≤ 255)
    (r : Fin 4096) (j : Fin 256) :
    acc (F := Ideal) x0 x1 x2 (ix2 r j)
      = planeSum (fun k => x1 (ix3 k (codeOf (x0 (ix2 r k))) j)) (fun k => x2 (ix3 k (codeOf (x0 (ix2 r k))) j)) := by
  rw [acc_eq, pay2_ld]
  rw [step_apply x0 x1 x2 hx0 7 (by decide), step_apply x0 x1 x2 hx0 6 (by decide), step_apply x0 x1 x2 hx0 5 (by decide),
    step_apply x0 x1 x2 hx0 4 (by decide), step_apply x0 x1 x2 hx0 3 (by decide), step_apply x0 x1 x2 hx0 2 (by decide),
    step_apply x0 x1 x2 hx0 1 (by decide), step_apply x0 x1 x2 hx0 0 (by decide)]
  rw [broadcast_apply]
  show Ideal.ofBits .f32 0x00000000#32 + _ + _ + _ + _ + _ + _ + _ + _ + _ + _ + _ + _ + _ + _ + _ + _ = _
  rw [Ideal.ofBits_zero_f32]
  rfl

end Cert.KernelIdeal.Val

end
-- ==== Proof.Math.lean ====
/-
  Three facts about the specification. Clipping a word into [0, 255] and then reading it as a row gives the row the
  unclipped word names. A sum over the eight planes in which only one plane's head term is not zero is that term. And
  the kernel's padded tables make it so: at column j only plane j / 32 holds a centroid entry, its remainder term is
  the entry minus itself, which is zero because the entry is a real number.
-/
import proofs.«403901_j30253749633338_3_alg».proof.Proof.Spec

noncomputable section

namespace Cert.Codebook

open Idealize.ShloMosaic Idealize.ShloMosaic.ValueIdx

/-- The clipped word, read signed, is the word's signed value brought into [0, 255]. -/
theorem clip_toInt (x : BitVec 32) : (clip x).toInt = min 255 (max 0 x.toInt) := by
  unfold clip IntOp.minsi IntOp.maxsi
  have h0 : (0#32 : BitVec 32).toInt = 0 := by decide
  have h255 : (255#32 : BitVec 32).toInt = 255 := by decide
  by_cases hx : x.slt 0#32
  · have hx' : x.toInt < 0 := by simpa [BitVec.slt, h0] using hx
    rw [if_pos hx]
    have : ¬ (255#32 : BitVec 32).slt 0#32 := by decide
    rw [if_neg this, h0]; omega
  · have hx' : ¬ x.toInt < 0 := by simpa [BitVec.slt, h0] using hx
    rw [if_neg hx]
    by_cases hy : (255#32 : BitVec 32).slt x
    · have hy' : 255 < x.toInt := by simpa [BitVec.slt, h255] using hy
      rw [if_pos hy, h255]; omega
    · have hy' : ¬ 255 < x.toInt := by simpa [BitVec.slt, h255] using hy
      rw [if_neg hy]; omega

/-- So it lies in [0, 255], -/
theorem clip_range (x : BitVec 32) : 0 ≤ (clip x).toInt ∧ (clip x).toInt ≤ 255 := by
  rw [clip_toInt]; omega

/-- and names the same row as the word itself. -/
theorem codeOf_clip (x : BitVec 32) : codeOf (clip x) = codeOf x := by
  unfold codeOf
  refine Fin.ext ?_
  show min (clip x).toInt.toNat 255 = min x.toInt.toNat 255
  rw [clip_toInt]; omega

/-- If every remainder term is zero and every head term but plane `k0`'s is zero, the sum is plane `k0`'s head term. -/
theorem planeSum_single (h l : Fin 8 → EReal) (k0 : Fin 8) (hh : ∀ k, k ≠ k0 → h k = 0) (hl : ∀ k, l k = 0) :
    planeSum h l = h k0 := by
  obtain ⟨a, ha⟩ : ∃ a, a = h k0 := ⟨_, rfl⟩
  have hk : ∀ k, h k = if k = k0 then a else 0 := fun k => by
    by_cases e : k = k0
    · rw [if_pos e, e, ha]
    · rw [if_neg e, hh k e]
  unfold planeSum
  simp only [hl, hk, add_zero]
  fin_cases k0 <;> simp

/-- The padded tables at column `j`: the head term of plane `k` is the entry `T k (j − 32k)` where 32k ≤ j < 32k + 32 and
    zero elsewhere, the remainder term that entry minus itself; for real entries the sum is `T (j / 32) (j % 32)`. -/
theorem planeSum_padded (T : Fin 8 → Fin 32 → EReal) (hT : ∀ k e, ∃ r : ℝ, T k e = ((r : ℝ) : EReal)) (j : Fin 256) :
    planeSum
      (fun k => if h : 32 * k.val ≤ j.val ∧ j.val < 32 * k.val + 32 then T k (⟨j.val - 32 * k.val, by omega⟩ : Fin 32) else 0)
      (fun k => if h : 32 * k.val ≤ j.val ∧ j.val < 32 * k.val + 32 then
          T k (⟨j.val - 32 * k.val, by omega⟩ : Fin 32) - T k (⟨j.val - 32 * k.val, by omega⟩ : Fin 32) else 0)
      = T (⟨j.val / 32, by have := j.isLt; omega⟩ : Fin 8) (⟨j.val % 32, Nat.mod_lt _ (by decide)⟩ : Fin 32) := by
  have hj := j.isLt
  rw [planeSum_single _ _ (⟨j.val / 32, by omega⟩ : Fin 8)]
  · have hin : 32 * (j.val / 32) ≤ j.val ∧ j.val < 32 * (j.val / 32) + 32 := by omega
    rw [dif_pos hin]
    exact congrArg (T _) (Fin.ext (by show j.val - 32 * (j.val / 32) = j.val % 32; omega))
  · intro k hk
    have hne : k.val ≠ j.val / 32 := fun e => hk (Fin.ext e)
    rw [dif_neg (by omega)]
  · intro k
    by_cases hin : 32 * k.val ≤ j.val ∧ j.val < 32 * k.val + 32
    · rw [dif_pos hin]
      obtain ⟨r, hr⟩ := hT k (⟨j.val - 32 * k.val, by omega⟩ : Fin 32)
      rw [hr, ← EReal.coe_sub, sub_self, EReal.coe_zero]
    · rw [dif_neg hin]

end Cert.Codebook

end
-- ==== Proof.KV.Final.lean ====
/-
  The kernel's result, index by index, at the ideal instance. At grid point t the region writes back rows 4096 t to
  4096 t + 4095 of the flat output; the accumulator's entry there is the sum over the planes of the picked head and
  remainder entries, of which only plane j / 32 contributes, so row R, column j holds the centroid entry of plane
  j / 32, the row the code word of token (R / 200, R % 200) in that plane names, column j % 32. The 25 blocks cover
  the flat output, and the reshape after the region turns row R into token (R / 200, R % 200).
-/
import proofs.«403901_j30253749633338_3_alg».proof.Proof.KI.Run
import proofs.«403901_j30253749633338_3_alg».proof.Proof.KV.Host
import proofs.«403901_j30253749633338_3_alg».proof.Proof.KV.Payload
import proofs.«403901_j30253749633338_3_alg».proof.Proof.Math
import Idealize.ShloMosaic.Lib.StableHlo.Run
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Fr Cert.Codebook
open Idealize.ShloMosaic.Pipeline (Dat)

variable (m : (ℓ : Loc nD τ sig) → Buf (Elt Ideal) ℓ) (ρ : Dev nD → PrngReg)

/-! ## The blocks and the arrays at their literal types -/

abbrev blkCodes (c : Dev nD) (t : Fin cfg0.N) : Vec Ideal S4096x8 .i32 := iblk m c 0 t
abbrev blkHi (c : Dev nD) (t : Fin cfg0.N) : Vec Ideal S8x256x256 .bf16 := iblk m c 1 t
abbrev blkLo (c : Dev nD) (t : Fin cfg0.N) : Vec Ideal S8x256x256 .bf16 := iblk m c 2 t
abbrev arrCodes (c : Dev nD) : S102400x8.Idx → BitVec 32 := V m c main_v13
abbrev arrHi (c : Dev nD) : S8x256x256.Idx → EReal := V m c main_v50
abbrev arrLo (c : Dev nD) : S8x256x256.Idx → EReal := V m c main_v83

/-- The flat output as one function of the code words `W` and the centroids: row R is token (R / 200, R % 200). -/
def G3 (W : S512x200x8.Idx → BitVec 32) (T : S8x256x32.Idx → EReal) : S102400x256.Idx → EReal := fun i =>
  T (ix3 (⟨(i 1).val / 32, by have h : (i 1).val < 256 := (i 1).isLt; show (i 1).val / 32 < 8; omega⟩ : Fin 8)
    (codeOf (W (ix3 (⟨(i 0).val / 200, by have h : (i 0).val < 102400 := (i 0).isLt; show (i 0).val / 200 < 512; omega⟩ : Fin 512)
      (⟨(i 0).val % 200, Nat.mod_lt _ (by decide)⟩ : Fin 200)
      (⟨(i 1).val / 32, by have h : (i 1).val < 256 := (i 1).isLt; show (i 1).val / 32 < 8; omega⟩ : Fin 8))))
    (⟨(i 1).val % 32, Nat.mod_lt _ (by decide)⟩ : Fin 32))

theorem hz2 : (![0, 0] : Fin 2 → Nat) = fun _ => 0 := funext fun a => by fin_cases a <;> rfl

/-- The printed index maps over the grid: the code block and the output block move with the point along axis 0; the
    two tables are fetched whole. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

theorem t_lt (t : Fin cfg0.N) : t.val < 25 := lt_of_lt_of_eq t.isLt N_0

/-! ## The blocks read off the arrays -/

theorem blkCodes_read (c : Dev nD) (t : Fin cfg0.N) (r : Fin 4096) (k : Fin 8) :
    blkCodes m c t (ix2 r k)
      = arrCodes m c (ix2 (⟨t.val * 4096 + r.val, by have := t_lt t; have := r.isLt; omega⟩ : Fin 102400) k) := by
  obtain ⟨e00, e01, -⟩ := idx_facts t
  show V m c main_v13 (((cfg0.win 0).blk t).view.emb (ix2 r k)) = V m c main_v13 _
  refine congrArg (V m c main_v13) (funext fun a => Fin.ext ?_)
  match a with
  | ⟨0, _⟩ => show win0_0.index t (0 : Fin 2) * 4096 + 1 * r.val = t.val * 4096 + r.val; omega
  | ⟨1, _⟩ => show win0_0.index t (1 : Fin 2) * 8 + 1 * k.val = k.val; omega

theorem blkHi_read (c : Dev nD) (t : Fin cfg0.N) (p : Fin 8) (q : Fin 256) (j : Fin 256) :
    blkHi m c t (ix3 p q j) = arrHi m c (ix3 p q j) := by
  obtain ⟨-, -, e10, e11, e12, -⟩ := idx_facts t
  show V m c main_v50 (((cfg0.win 1).blk t).view.emb (ix3 p q j)) = V m c main_v50 _
  refine congrArg (V m c main_v50) (funext fun a => Fin.ext ?_)
  match a with
  | ⟨0, _⟩ => show win0_1.index t (0 : Fin 3) * 8 + 1 * p.val = p.val; omega
  | ⟨1, _⟩ => show win0_1.index t (1 : Fin 3) * 256 + 1 * q.val = q.val; omega
  | ⟨2, _⟩ => show win0_1.index t (2 : Fin 3) * 256 + 1 * j.val = j.val; omega

theorem blkLo_read (c : Dev nD) (t : Fin cfg0.N) (p : Fin 8) (q : Fin 256) (j : Fin 256) :
    blkLo m c t (ix3 p q j) = arrLo m c (ix3 p q j) := by
  obtain ⟨-, -, -, -, -, e20, e21, e22, -⟩ := idx_facts t
  show V m c main_v83 (((cfg0.win 2).blk t).view.emb (ix3 p q j)) = V m c main_v83 _
  refine congrArg (V m c main_v83) (funext fun a => Fin.ext ?_)
  match a with
  | ⟨0, _⟩ => show win0_2.index t (0 : Fin 3) * 8 + 1 * p.val = p.val; omega
  | ⟨1, _⟩ => show win0_2.index t (1 : Fin 3) * 256 + 1 * q.val = q.val; omega
  | ⟨2, _⟩ => show win0_2.index t (2 : Fin 3) * 256 + 1 * j.val = j.val; omega

/-! ## One entry of the accumulated block -/

/-- For real centroid entries, the accumulator of point `t` at (r, j) is `G3` at row 4096 t + r, column j. -/
theorem acc_point (hfin : ∀ c i, ∃ x : ℝ, cen m c i = ((x : ℝ) : EReal)) (c : Dev nD) (t : Fin cfg0.N) (r : Fin 4096) (j : Fin 256) :
    acc (F := Ideal) (blkCodes m c t) (blkHi m c t) (blkLo m c t) (ix2 r j)
      = G3 (Wk (ids m c) (tbl m c)) (cen m c)
          (ix2 (⟨t.val * 4096 + r.val, by have := t_lt t; have := r.isLt; omega⟩ : Fin 102400) j) := by
  have hcode : ∀ k : Fin 8, blkCodes m c t (ix2 r k)
      = clip (Wk (ids m c) (tbl m c) (ix3 (⟨(t.val * 4096 + r.val) / 200, by have := t_lt t; have := r.isLt; omega⟩ : Fin 512)
          (⟨(t.val * 4096 + r.val) % 200, Nat.mod_lt _ (by decide)⟩ : Fin 200) k)) := fun k =>
    (blkCodes_read m c t r k).trans (codes_apply m c _ k)
  rw [acc_apply (blkCodes m c t) (blkHi m c t) (blkLo m c t) (fun r' k => by
    rw [(blkCodes_read m c t r' k).trans (codes_apply m c _ k)]; exact clip_range _) r j]
  have hH : (fun k : Fin 8 => blkHi m c t (ix3 k (codeOf (blkCodes m c t (ix2 r k))) j))
      = fun k : Fin 8 => if h : 32 * k.val ≤ j.val ∧ j.val < 32 * k.val + 32 then
          cen m c (ix3 k (codeOf (Wk (ids m c) (tbl m c) (ix3 (⟨(t.val * 4096 + r.val) / 200, by have := t_lt t; have := r.isLt; omega⟩ : Fin 512)
            (⟨(t.val * 4096 + r.val) % 200, Nat.mod_lt _ (by decide)⟩ : Fin 200) k))) (⟨j.val - 32 * k.val, by omega⟩ : Fin 32))
        else (0 : EReal) := funext fun k =>
    (congrArg (fun x => blkHi m c t (ix3 k (codeOf x) j)) (hcode k)).trans
      ((congrArg (fun q => blkHi m c t (ix3 k q j)) (codeOf_clip _)).trans
        ((blkHi_read m c t k _ j).trans (hi_apply m c k _ j)))
  have hL : (fun k : Fin 8 => blkLo m c t (ix3 k (codeOf (blkCodes m c t (ix2 r k))) j))
      = fun k : Fin 8 => if h : 32 * k.val ≤ j.val ∧ j.val < 32 * k.val + 32 then
          cen m c (ix3 k (codeOf (Wk (ids m c) (tbl m c) (ix3 (⟨(t.val * 4096 + r.val) / 200, by have := t_lt t; have := r.isLt; omega⟩ : Fin 512)
            (⟨(t.val * 4096 + r.val) % 200, Nat.mod_lt _ (by decide)⟩ : Fin 200) k))) (⟨j.val - 32 * k.val, by omega⟩ : Fin 32))
          - cen m c (ix3 k (codeOf (Wk (ids m c) (tbl m c) (ix3 (⟨(t.val * 4096 + r.val) / 200, by have := t_lt t; have := r.isLt; omega⟩ : Fin 512)
            (⟨(t.val * 4096 + r.val) % 200, Nat.mod_lt _ (by decide)⟩ : Fin 200) k))) (⟨j.val - 32 * k.val, by omega⟩ : Fin 32))
        else (0 : EReal) := funext fun k =>
    (congrArg (fun x => blkLo m c t (ix3 k (codeOf x) j)) (hcode k)).trans
      ((congrArg (fun q => blkLo m c t (ix3 k q j)) (codeOf_clip _)).trans
        ((blkLo_read m c t k _ j).trans (lo_apply m c k _ j)))
  rw [hH, hL]
  exact planeSum_padded (fun k e => cen m c (ix3 k
      (codeOf (Wk (ids m c) (tbl m c) (ix3 (⟨(t.val * 4096 + r.val) / 200, by have := t_lt t; have := r.isLt; omega⟩ : Fin 512)
        (⟨(t.val * 4096 + r.val) % 200, Nat.mod_lt _ (by decide)⟩ : Fin 200) k))) e))
    (fun k e => hfin c _) j

/-! ## What each point writes back, the cover, the array -/

theorem flushed_eq (hfin : ∀ c i, ∃ x : ℝ, cen m c i = ((x : ℝ) : EReal)) (c : Dev nD) (t : Fin cfg0.N) :
    (dats m 0 c).flushed 3 t = ((cfg0.win 3).blk t).view.read (Elt Ideal) (G3 (Wk (ids m c) (tbl m c)) (cen m c)) := by
  show (cfg0.win 3).cut (grid0.coords t) ((dats m 0 c).after 3 t) = _
  rw [after0_3]
  unfold out0_3
  rw [View.canon_unit_zero hz2]
  funext y
  obtain ⟨r, j, rfl⟩ : ∃ (r : Fin 4096) (j : Fin 256), y = ix2 r j := ⟨y 0, y 1, eq_ix2 y⟩
  obtain ⟨-, -, -, -, -, -, -, -, e30, e31⟩ := idx_facts t
  refine (acc_point m hfin c t r j).trans ?_
  show _ = G3 _ _ (((cfg0.win 3).blk t).view.emb (ix2 r j))
  refine congrArg (G3 _ _) (funext fun a => Fin.ext ?_)
  match a with
  | ⟨0, _⟩ => show t.val * 4096 + r.val = win0_3.index t (0 : Fin 2) * 4096 + 1 * r.val; omega
  | ⟨1, _⟩ => show j.val = win0_3.index t (1 : Fin 2) * 256 + 1 * j.val; omega

theorem mem_blk3 (t : Fin cfg0.N) (i : S102400x256.Idx) :
    i ∈ ((cfg0.win 3).blk t).view.set ↔ ∀ a : Fin 2, win0_3.index t a * S4096x256.size a ≤ (i a).val ∧ (i a).val < win0_3.index t a * S4096x256.size a + S4096x256.size a := by
  show i ∈ ((View.whole main_v84).slice (win0_3.rect t)).set ↔ _
  rw [View.set_slice_whole, Rect.mem_set_unit]
  exact Iff.rfl

/-- Row R lies in the block of point R / 4096. -/
theorem cover3 (i : S102400x256.Idx) :
    ∃ t : Fin cfg0.N, (cfg0.win 3).flush t = true ∧ i ∈ ((cfg0.win 3).blk t).view.set := by
  have h0 : (i 0).val < 102400 := (i 0).isLt
  have h1 : (i 1).val < 256 := (i 1).isLt
  have hN : (i 0).val / 4096 < cfg0.N := by rw [show cfg0.N = 25 from N_0]; omega
  refine ⟨⟨(i 0).val / 4096, hN⟩, flush0_3 _, ?_⟩
  obtain ⟨-, -, -, -, -, -, -, -, e30, e31⟩ := idx_facts ⟨(i 0).val / 4096, hN⟩
  rw [mem_blk3]
  intro a
  match a with
  | ⟨0, _⟩ => show win0_3.index ⟨(i 0).val / 4096, hN⟩ (0 : Fin 2) * 4096 ≤ (i 0).val ∧ (i 0).val < win0_3.index ⟨(i 0).val / 4096, hN⟩ (0 : Fin 2) * 4096 + 4096
              rw [e30]; show (i 0).val / 4096 * 4096 ≤ (i 0).val ∧ (i 0).val < (i 0).val / 4096 * 4096 + 4096; omega
  | ⟨1, _⟩ => show win0_3.index ⟨(i 0).val / 4096, hN⟩ (1 : Fin 2) * 256 ≤ (i 1).val ∧ (i 1).val < win0_3.index ⟨(i 0).val / 4096, hN⟩ (1 : Fin 2) * 256 + 256
              rw [e31]; omega

/-- The flat output after the run. -/
theorem final3 (hfin : ∀ c i, ∃ x : ℝ, cen m c i = ((x : ℝ) : EReal)) (c : Dev nD) :
    (dats m 0 c).arrAt 3 cfg0.N = G3 (Wk (ids m c) (tbl m c)) (cen m c) :=
  (dats m 0 c).arrAt_eq_of_cover 3 _ (fun t _ => flushed_eq m hfin c t) cover3

/-! ## The reshape after the region -/

/-- The reshaped flat output is the specification's result. -/
theorem shapeCast_G3 (W : S512x200x8.Idx → BitVec 32) (T : S8x256x32.Idx → EReal) :
    shapeCast S512x200x256 (G3 W T) shapeCasts_S102400x256_S512x200x256 = G W T := by
  funext i
  have h0 : (i 0).val < 512 := (i 0).isLt
  have h1 : (i 1).val < 200 := (i 1).isLt
  have h2 : (i 2).val < 256 := (i 2).isLt
  refine (shapeCast_apply (G3 W T) shapeCasts_S102400x256_S512x200x256 i
    (ix2 (⟨(i 0).val * 200 + (i 1).val, by omega⟩ : Fin 102400) (⟨(i 2).val, h2⟩ : Fin 256))
    (by rw [Shape.rowMajor_val_two, Shape.rowMajor_val_three]
        show ((i 0).val * 200 + (i 1).val) * 256 + (i 2).val = ((i 0).val * 200 + (i 1).val) * 256 + (i 2).val; rfl)).trans ?_
  unfold G3 G
  refine congrArg T (funext fun a => Fin.ext ?_)
  match a with
  | ⟨0, _⟩ => rfl
  | ⟨1, _⟩ =>
    show (codeOf (W _)).val = (codeOf (W _)).val
    refine congrArg (fun x => (codeOf (W x)).val) (funext fun b => Fin.ext ?_)
    match b with
    | ⟨0, _⟩ => show ((i 0).val * 200 + (i 1).val) / 200 = (i 0).val; omega
    | ⟨1, _⟩ => show ((i 0).val * 200 + (i 1).val) % 200 = (i 1).val; omega
    | ⟨2, _⟩ => rfl
  | ⟨2, _⟩ => rfl

/-- What the result buffer holds after the run: the specification's result of the program's own code words. -/
theorem result_eq (hfin : ∀ c i, ∃ x : ℝ, cen m c i = ((x : ℝ) : EReal)) (c : Dev nD) :
    Pipeline.afterTail₀ cfgs (dats m) 0 (V0 m) [hostOps1] c main_v85 = G (Wk (ids m c) (tbl m c)) (cen m c) := by
  unfold Pipeline.afterTail₀
  show StableHlo.after hostOps1 _ (Proc.devRef .tc main_v85) = _
  after_results
  rw [Pipeline.withArrays_arr spec0 launch0.win.arr_inj c _ _ 3, final3 m hfin c]
  exact shapeCast_G3 _ _

end Cert.KernelIdeal.Val

end
-- ==== Proof.KV.Finite.lean ====
/-
  The precondition read at one entry: every centroid entry is a real number.
-/
import proofs.«403901_j30253749633338_3_alg».proof.Defs
import proofs.«403901_j30253749633338_3_alg».proof.Proof.Gen.KernelIdeal
import proofs.«403901_j30253749633338_3_alg».proof.Proof.Gen.Pre_finite_inputs
import Idealize.ShloMosaic.Lib.ReduceAll
import Idealize.ShloMosaic.Lib.ValueIdx

noncomputable section

namespace Cert.KernelIdeal.Val

open Idealize.ShloMosaic Idealize.ShloMosaic.TcCoe Idealize.ShloMosaic.ValueIdx Idealize.SL.Sem
open Cert.KernelIdeal Cert.KernelIdeal.Gen

/-- An extended real whose absolute value lies below the top is a real number. -/
theorem real_of_abs_lt_top (x : EReal) (hx : max x (-x) < ⊤) : ∃ r : ℝ, x = ((r : ℝ) : EReal) := by
  induction x using EReal.rec with
  | bot => exact absurd hx (by simp)
  | coe r => exact ⟨r, rfl⟩
  | top => exact absurd hx (by simp)

/-- The comparison "|x| < +∞" holding, with +∞ given by its single-precision pattern, makes x a real number. -/
theorem real_of_abs_olt_inf (x : EReal)
    (hx : Ideal.cmp .olt (max x (-x)) (Ideal.ofBits .f32 0x7F800000#32) = 1#1) : ∃ r : ℝ, x = ((r : ℝ) : EReal) := by
  have htop : Ideal.ofBits .f32 0x7F800000#32 = ⊤ := by simp [Ideal.ofBits, Ideal.ieee]
  rw [htop] at hx
  refine real_of_abs_lt_top x ?_
  by_contra hn
  simp [Ideal.cmp, hn] at hx

/-- Under the precondition every entry of the centroid array is finite. -/
theorem cen_finite (m : (ℓ : Loc nD τ sig) → Buf (Elt Ideal) ℓ)
    (h : Cert.Pre_KernelIdeal (hPre_finite_inputs := Cert.Pre_finite_inputs.Gen.facts) m) (c : Dev nD) (i : S8x256x32.Idx) :
    ∃ r : ℝ, m ((c.tc : Thread nD τ).loc main_arg2) i = ((r : ℝ) : EReal) := by
  -- the precondition, read at the only index of its rank-0 result
  have h0 := congrFun (h c) ValueIdx.ix0
  dsimp only [Cert.Pre_finite_inputs.fn] at h0
  -- a conjunction over all three axes that is true is true at every entry
  haveI : Subsingleton Cert.Pre_finite_inputs.S_.Idx := ⟨fun a b => funext fun d => d.elim0⟩
  have h1 := Host.reduce_andi_all _ _ _ _ _ h0 i
  -- the entry's comparison is |x| < +∞
  exact real_of_abs_olt_inf _ h1

end Cert.KernelIdeal.Val

end
-- ==== Proof.RV.Ref.lean ====
/-
  The reference read at one entry. Its second gather reads the centroid tables at (plane, code word) pairs: the plane
  index is an iota, already in range; the code word is clamped into [0, 255] by the gather itself; the final reshape
  joins the plane and column axes, so result column j is plane j / 32, column j % 32.
-/
import proofs.«403901_j30253749633338_3_alg».proof.Proof.Gen.ReferenceIdeal.Read
import proofs.«403901_j30253749633338_3_alg».proof.Proof.Spec
import Idealize.ShloMosaic.Lib.Pipeline.Value
import Idealize.ShloMosaic.Lib.ValueLayout

noncomputable section

namespace Cert.ReferenceIdeal.RefVal

open Idealize.ShloMosaic Idealize.ShloMosaic.TcCoe Idealize.ShloMosaic.ValueIdx Idealize.SL.Sem
open Cert.ReferenceIdeal Cert.ReferenceIdeal.Gen Cert.ReferenceIdeal.Read Cert.Codebook

/-- The second gather's dimension numbers: operand the centroid tables [8, 256, 32], start indices [512, 200, 8, 2]
    (a plane index and a code word per token and plane), result [512, 200, 8, 32]. -/
abbrev gd := gather_S8x256x32_S512x200x8x2_S512x200x8x32_3_01_n_n_01_3_1132

/-- The second gather read at (b, s, k, e). The first two operand axes are collapsed and named by the start index
    map, so each reads its component of the start index, signed and clamped into the axis (no batching, no offset);
    the third axis is not in the map, so it starts at 0 and takes the result's last coordinate as its offset. -/
theorem gather_cen_apply {α : Type} (x : S8x256x32.Idx → α) (idx : S512x200x8x2.Idx → BitVec 32)
    (b : Fin 512) (s : Fin 200) (k : Fin 8) (e : Fin 32) :
    Host.gather gd x idx (ix4 b s k e)
      = x (ix3 (⟨min (idx (ix4 b s k (0 : Fin 2))).toInt.toNat 7, by omega⟩ : Fin 8)
               (⟨min (idx (ix4 b s k (1 : Fin 2))).toInt.toNat 255, by omega⟩ : Fin 256) e) := by
  unfold Host.gather
  congr 1
  funext a
  refine Fin.ext ?_
  have hnb : ∀ a : Fin S8x256x32.rank, a ∉ gd.operandBatchingDims := fun a => List.not_mem_nil
  match a with
  | ⟨0, _⟩ =>
    -- the plane axis: component 0 of the start index, clamped into [0, 7]
    show gd.start (ix4 b s k e) idx 0 + gd.batchCoord (ix4 b s k e) 0 + gd.offCoord (ix4 b s k e) 0 = _
    have hc : (0 : Fin S8x256x32.rank) ∈ gd.collapsedSliceDims := List.mem_cons_self
    have hm : (0 : Fin S8x256x32.rank) ∈ gd.startIndexMap := List.mem_cons_self
    rw [GatherDims.batchCoord_eq_zero _ _ _ (hnb _),
      GatherDims.offCoord_eq_zero _ _ _ (fun h => ((GatherDims.mem_sKept _ _).mp h).1 hc)]
    simp only [Nat.add_zero]
    unfold GatherDims.start
    rw [dif_pos hm]
    have hsi : gd.siIdx (ix4 b s k e) ⟨List.idxOf (0 : Fin S8x256x32.rank) gd.startIndexMap,
        List.idxOf_lt_length_iff.2 hm⟩ = ix4 b s k (0 : Fin 2) := by
      funext c; refine Fin.ext ?_
      match c with
      | ⟨0, _⟩ => rfl
      | ⟨1, _⟩ => rfl
      | ⟨2, _⟩ => rfl
      | ⟨3, _⟩ => rfl
    rw [hsi]
    rfl
  | ⟨1, _⟩ =>
    -- the row axis: component 1 of the start index, clamped into [0, 255]
    show gd.start (ix4 b s k e) idx 1 + gd.batchCoord (ix4 b s k e) 1 + gd.offCoord (ix4 b s k e) 1 = _
    have hc : (1 : Fin S8x256x32.rank) ∈ gd.collapsedSliceDims := List.mem_cons_of_mem _ List.mem_cons_self
    have hm : (1 : Fin S8x256x32.rank) ∈ gd.startIndexMap := List.mem_cons_of_mem _ List.mem_cons_self
    rw [GatherDims.batchCoord_eq_zero _ _ _ (hnb _),
      GatherDims.offCoord_eq_zero _ _ _ (fun h => ((GatherDims.mem_sKept _ _).mp h).1 hc)]
    simp only [Nat.add_zero]
    unfold GatherDims.start
    rw [dif_pos hm]
    have hsi : gd.siIdx (ix4 b s k e) ⟨List.idxOf (1 : Fin S8x256x32.rank) gd.startIndexMap,
        List.idxOf_lt_length_iff.2 hm⟩ = ix4 b s k (1 : Fin 2) := by
      funext c; refine Fin.ext ?_
      match c with
      | ⟨0, _⟩ => rfl
      | ⟨1, _⟩ => rfl
      | ⟨2, _⟩ => rfl
      | ⟨3, _⟩ => rfl
    rw [hsi]
    rfl
  | ⟨2, _⟩ =>
    -- the column axis: the whole axis is the slice, read at the result's last coordinate
    show gd.start (ix4 b s k e) idx 2 + gd.batchCoord (ix4 b s k e) 2 + gd.offCoord (ix4 b s k e) 2 = _
    have hm : (2 : Fin S8x256x32.rank) ∉ gd.startIndexMap := by decide
    have hk : (2 : Fin S8x256x32.rank) ∈ gd.sKept := by decide
    rw [GatherDims.batchCoord_eq_zero _ _ _ (hnb _)]
    unfold GatherDims.start GatherDims.offCoord
    rw [dif_neg hm, dif_pos hk]
    simp only [Nat.zero_add]
    rfl

/-- The plane index word: the iota value k is below 8, so it is not negative and the wrap-around k + 8 is not taken. -/
theorem plane_word : ∀ k : Fin 8,
    Scalar.select (IntOp.cmpi .slt (BitVec.ofNat 32 k.val) 0#32) (IntOp.addi (BitVec.ofNat 32 k.val) 8#32)
      (BitVec.ofNat 32 k.val) = BitVec.ofNat 32 k.val := by decide

/-- Read signed and clamped into [0, 7], the plane index word k is k. -/
theorem plane_clamp : ∀ k : Fin 8, min (BitVec.ofNat 32 k.val).toInt.toNat 7 = k.val := by decide

/-- Component 0 of the start index at (b, s, k): the first piece of the concatenation, the broadcast plane index k. -/
theorem v22_zero (x0 : S512x200.Idx → BitVec 32) (x1 : S1000001x8.Idx → BitVec 32)
    (b : Fin 512) (s : Fin 200) (k : Fin 8) :
    val_main_v22 (F := Ideal) x0 x1 (ix4 b s k (0 : Fin 2)) = BitVec.ofNat 32 k.val := by
  unfold val_main_v22
  refine (concatenate_pair_apply_left (s₁ := S512x200x8x1) (s₂ := S512x200x8x1) (3 : Fin S512x200x8x2.rank) _ _ _ (ix4 b s k (0 : Fin 2)) rfl
    (ix4 b s k (0 : Fin 1)) (fun c => match c with
      | ⟨0, _⟩ => rfl
      | ⟨1, _⟩ => rfl
      | ⟨2, _⟩ => rfl
      | ⟨3, _⟩ => rfl)).trans ?_
  rw [val_main_v20_apply, val_main_v19_apply, val_main_v13_apply, val_main_v10_apply, val_main_v12_apply,
    val_main_v8_apply, val_main_v7_apply, val_main_v9_apply, val_main_c_1_apply, val_main_v11_apply, val_main_c_2_apply]
  exact plane_word k

/-- Component 1 of the start index at (b, s, k): the second piece of the concatenation, the code word of token (b, s)
    in plane k. -/
theorem v22_one (x0 : S512x200.Idx → BitVec 32) (x1 : S1000001x8.Idx → BitVec 32)
    (b : Fin 512) (s : Fin 200) (k : Fin 8) :
    val_main_v22 (F := Ideal) x0 x1 (ix4 b s k (1 : Fin 2)) = val_main_v18 (F := Ideal) x0 x1 (ix3 b s k) := by
  unfold val_main_v22
  refine (concatenate_pair_apply_right (s₁ := S512x200x8x1) (s₂ := S512x200x8x1) (3 : Fin S512x200x8x2.rank) _ _ _ (ix4 b s k (1 : Fin 2)) rfl rfl
    (ix4 b s k (0 : Fin 1)) (fun c => match c with
      | ⟨0, _⟩ => fun _ => rfl
      | ⟨1, _⟩ => fun _ => rfl
      | ⟨2, _⟩ => fun _ => rfl
      | ⟨3, _⟩ => fun h => absurd rfl h) rfl).trans ?_
  rw [val_main_v21_apply]
  refine congrArg _ ?_
  funext c
  match c with
  | ⟨0, _⟩ => rfl
  | ⟨1, _⟩ => rfl
  | ⟨2, _⟩ => rfl

/-- The gathered array at (b, s, k, e): the centroid entry of plane k, row codeOf of the token's code word in
    plane k, column e. The clamp of the row index into [0, 255] is codeOf by definition. -/
theorem v23_apply (x0 : S512x200.Idx → BitVec 32) (x1 : S1000001x8.Idx → BitVec 32) (x2 : S8x256x32.Idx → EReal)
    (b : Fin 512) (s : Fin 200) (k : Fin 8) (e : Fin 32) :
    val_main_v23 (F := Ideal) x0 x1 x2 (ix4 b s k e)
      = x2 (ix3 k (codeOf (val_main_v18 (F := Ideal) x0 x1 (ix3 b s k))) e) := by
  unfold val_main_v23
  refine (gather_cen_apply x2 _ b s k e).trans ?_
  refine congrArg x2 ?_
  funext c
  match c with
  | ⟨0, _⟩ =>
    refine Fin.ext ?_
    show min (val_main_v22 (F := Ideal) x0 x1 (ix4 b s k (0 : Fin 2))).toInt.toNat 7 = k.val
    rw [v22_zero]
    exact plane_clamp k
  | ⟨1, _⟩ =>
    refine Fin.ext ?_
    show min (val_main_v22 (F := Ideal) x0 x1 (ix4 b s k (1 : Fin 2))).toInt.toNat 255 = _
    rw [v22_one]
    rfl
  | ⟨2, _⟩ => rfl

/-- The reference's result is `G` of its own code words (`val_main_v18`: the gathered words, negatives raised by 256)
    and the centroid tables. -/
theorem ref_apply (x0 : S512x200.Idx → BitVec 32) (x1 : S1000001x8.Idx → BitVec 32) (x2 : S8x256x32.Idx → EReal) :
    val_main_v24 (F := Ideal) x0 x1 x2 = G (val_main_v18 (F := Ideal) x0 x1) x2 := by
  funext i
  rw [val_main_v24_apply]
  have h0 : (i 0).val < 512 := (i 0).isLt
  have h1 : (i 1).val < 200 := (i 1).isLt
  have h2 : (i 2).val < 256 := (i 2).isLt
  -- the reshape: flat position ((b·200 + s)·256 + j) of the result is (b, s, j / 32, j % 32) of the gathered array
  have hi : idx_main_v24 i = ix4 (⟨(i 0).val, h0⟩ : Fin 512) (⟨(i 1).val, h1⟩ : Fin 200)
      (⟨(i 2).val / 32, by omega⟩ : Fin 8) (⟨(i 2).val % 32, Nat.mod_lt _ (by decide)⟩ : Fin 32) := by
    funext a
    refine Fin.ext ?_
    match a with
    | ⟨0, _⟩ => show (((i 0).val * 200 + (i 1).val) * 256 + (i 2).val) / 51200 = (i 0).val; omega
    | ⟨1, _⟩ => show (((i 0).val * 200 + (i 1).val) * 256 + (i 2).val) / 256 % 200 = (i 1).val; omega
    | ⟨2, _⟩ => show (((i 0).val * 200 + (i 1).val) * 256 + (i 2).val) / 32 % 8 = (i 2).val / 32; omega
    | ⟨3, _⟩ => show (((i 0).val * 200 + (i 1).val) * 256 + (i 2).val) % 32 = (i 2).val % 32; omega
  rw [hi, v23_apply]
  rfl

end Cert.ReferenceIdeal.RefVal

end
-- ==== Proof.lean ====
/-
  The certificate of the product-quantisation lookup: a kernel that reads, for each of 102,400 tokens and each of
  eight planes, one 32-wide centroid row named by a code word, against a reference that gathers the same rows.
  The kernel turns each code word into a one-hot row and multiplies it into a table padded to 256 columns, once for
  the centroids' heads and once for their remainders (the centroid minus its head); on extended reals a change of
  format is the identity, so the head is the centroid and the remainder is the centroid minus itself, zero for a
  real entry — the one place the precondition is used. Both programs compute the code words by the same gather and
  the same wrap of negative words; the kernel clips the word into [0, 255] where the reference's second gather
  clamps its index, which name the same row. The three frames: each kernel program runs its 37 stretches of host
  operations, the region over 25 grid points, and one reshape, leaving its arguments as launched; the reference is a
  straight line of host operations.
-/
import proofs.«403901_j30253749633338_3_alg».proof.Defs
import proofs.«403901_j30253749633338_3_alg».proof.Proof.Gen.Kernel
import proofs.«403901_j30253749633338_3_alg».proof.Proof.Gen.KernelIdeal
import proofs.«403901_j30253749633338_3_alg».proof.Proof.Gen.ReferenceIdeal
import proofs.«403901_j30253749633338_3_alg».proof.Proof.Gen.ReferenceIdeal.Run
import proofs.«403901_j30253749633338_3_alg».proof.Proof.Gen.ReferenceIdeal.Read
import proofs.«403901_j30253749633338_3_alg».proof.Proof.Gen.Pre_finite_inputs
import proofs.«403901_j30253749633338_3_alg».proof.Proof.K.Run
import proofs.«403901_j30253749633338_3_alg».proof.Proof.KI.Run
import proofs.«403901_j30253749633338_3_alg».proof.Proof.KV.Final
import proofs.«403901_j30253749633338_3_alg».proof.Proof.KV.Finite
import proofs.«403901_j30253749633338_3_alg».proof.Proof.RV.Ref

noncomputable section

namespace Cert.Proof

open Idealize.ShloMosaic Idealize.ShloMosaic.TcCoe Idealize.SL.Sem

/-! ## The frames -/

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-! ## The values -/

/-- The two programs compute the code words by the same operations of the same arguments. -/
theorem codeWords_eq (x0 : Cert.KernelIdeal.S512x200.Idx → BitVec 32) (x1 : Cert.KernelIdeal.S1000001x8.Idx → BitVec 32) :
    Cert.KernelIdeal.Val.Wk x0 x1 = Cert.ReferenceIdeal.Read.val_main_v18 (F := Ideal) x0 x1 := rfl

/-- From memories that agree on the arguments both programs end with the specification's result of the same code
    words and the same centroids. -/
theorem algebraic : Cert.algebraic_KernelIdeal_ReferenceIdeal := by
  intro m ρ m' ρ' hpre hagree
  have hfin : ∀ c i, ∃ x : ℝ, Cert.KernelIdeal.Val.cen m c i = ((x : ℝ) : EReal) :=
    fun c i => Cert.KernelIdeal.Val.cen_finite m hpre c i
  refine ⟨fun c => Cert.Codebook.G
    (Cert.KernelIdeal.Val.Wk (Cert.KernelIdeal.Val.ids m c) (Cert.KernelIdeal.Val.tbl m c)) (Cert.KernelIdeal.Val.cen m c), ?_, ?_⟩
  · exact (θ_run Cert.KernelIdeal.defs _ _).mono
      (fun _ h c => ⟨(h c).1.trans (Cert.KernelIdeal.Val.result_eq m hfin c), (h c).2⟩)
      (Cert.KernelIdeal.Fr.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v24_eq, Cert.ReferenceIdeal.RefVal.ref_apply,
      (hagree c).1, (hagree c).2.1, (hagree c).2.2, ← codeWords_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
